-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128 .f32) (main_arg7 : FVec F S128x128 .f32) (main_arg8 : FVec F S128x128 .f32) (main_arg9 : FVec F S128 .f32) (main_arg10 : FVec F S128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128 .f32) (main_arg6 : FVec F S128 .f32) (main_arg7 : FVec F S128x128 .f32) (main_arg8 : FVec F S128x128 .f32) (main_arg9 : FVec F S128 .f32) (main_arg10 : FVec F S128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 72
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S800000x1, .f32⟩
  | .hbm, ⟨31, _⟩ => ⟨S_, .f32⟩
  | .hbm, ⟨32, _⟩ => ⟨S50000x1, .f32⟩
  | .hbm, ⟨33, _⟩ => ⟨S800000x1, .i32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S_, .f32⟩
  | .hbm, ⟨58, _⟩ => ⟨S800000x1, .f32⟩
  | .hbm, ⟨59, _⟩ => ⟨S_, .f32⟩
  | .hbm, ⟨60, _⟩ => ⟨S50000x1, .f32⟩
  | .hbm, ⟨61, _⟩ => ⟨S800000x1, .i32⟩
  | .hbm, ⟨62, _⟩ => ⟨S50000x1, .f32⟩
  | .hbm, ⟨63, _⟩ => ⟨S_, .f32⟩
  | .hbm, ⟨64, _⟩ => ⟨S50000x1, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000 : Shape := ⟨1, ![50000]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128x128, .f32⟩
  | 4 => ⟨S128, .f32⟩
  | 5 => ⟨S128, .f32⟩
  | 6 => ⟨S128, .f32⟩
  | 7 => ⟨S128x128, .f32⟩
  | 8 => ⟨S128x128, .f32⟩
  | 9 => ⟨S128, .f32⟩
  | 10 => ⟨S128, .f32⟩
  | 11 => ⟨S128, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S_, .f32⟩
  | 30 => ⟨S800000x1, .f32⟩
  | 31 => ⟨S_, .f32⟩
  | 32 => ⟨S50000x1, .f32⟩
  | 33 => ⟨S800000x1, .i32⟩
  | 34 => ⟨S50000x1, .f32⟩
  | 35 => ⟨S_, .f32⟩
  | 36 => ⟨S50000x1, .f32⟩
  | 37 => ⟨S50000x1, .f32⟩
  | 38 => ⟨S50000x128, .f32⟩
  | 39 => ⟨S50000x128, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S50000, .f32⟩
  | 48 => ⟨S50000x1, .f32⟩
  | 49 => ⟨S_, .f32⟩
  | 50 => ⟨S50000x1, .f32⟩
  | 51 => ⟨S50000x1, .f32⟩
  | 52 => ⟨S50000x128, .f32⟩
  | 53 => ⟨S50000x128, .f32⟩
  | 54 => ⟨S50000x128, .f32⟩
  | 55 => ⟨S_, .f32⟩
  | 56 => ⟨S50000, .f32⟩
  | 57 => ⟨S50000x1, .f32⟩
  | 58 => ⟨S_, .f32⟩
  | 59 => ⟨S50000x1, .f32⟩
  | 60 => ⟨S50000x1, .f32⟩
  | 61 => ⟨S50000x128, .f32⟩
  | 62 => ⟨S50000x128, .f32⟩
  | 63 => ⟨S_, .f32⟩
  | 64 => ⟨S50000x1, .f32⟩
  | 65 => ⟨S50000x1, .f32⟩
  | 66 => ⟨S50000x1, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S_, .f32⟩
  | 92 => ⟨S800000x1, .f32⟩
  | 93 => ⟨S_, .f32⟩
  | 94 => ⟨S50000x1, .f32⟩
  | 95 => ⟨S800000x1, .i32⟩
  | 96 => ⟨S50000x1, .f32⟩
  | 97 => ⟨S_, .f32⟩
  | 98 => ⟨S50000x1, .f32⟩
  | 99 => ⟨S50000x1, .f32⟩
  | 100 => ⟨S50000x128, .f32⟩
  | 101 => ⟨S50000x128, .f32⟩
  | 102 => ⟨S50000x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S50000, .f32⟩
  | 110 => ⟨S50000x1, .f32⟩
  | 111 => ⟨S_, .f32⟩
  | 112 => ⟨S50000x1, .f32⟩
  | 113 => ⟨S50000x1, .f32⟩
  | 114 => ⟨S50000x128, .f32⟩
  | 115 => ⟨S50000x128, .f32⟩
  | 116 => ⟨S50000x128, .f32⟩
  | 117 => ⟨S_, .f32⟩
  | 118 => ⟨S50000, .f32⟩
  | 119 => ⟨S50000x1, .f32⟩
  | 120 => ⟨S_, .f32⟩
  | 121 => ⟨S50000x1, .f32⟩
  | 122 => ⟨S50000x1, .f32⟩
  | 123 => ⟨S50000x128, .f32⟩
  | 124 => ⟨S50000x128, .f32⟩
  | 125 => ⟨S_, .f32⟩
  | 126 => ⟨S50000x1, .f32⟩
  | 127 => ⟨S50000x1, .f32⟩
  | _ => ⟨S50000x128, .f32⟩

abbrev hbmTy0_1 (i : Nat) : BufTy := match i % 128 with
  | 0 => ⟨S50000x1, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S50000x128, .f32⟩
  | 11 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call0_cst : Ref sig .tc := ⟨.hbm, 75, rfl⟩
abbrev main_call0_v0 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_15 : Ref sig .tc := ⟨.hbm, 108, rfl⟩
abbrev main_v77 : Ref sig .tc := ⟨.hbm, 109, rfl⟩
abbrev main_v78 : Ref sig .tc := ⟨.hbm, 110, rfl⟩
abbrev main_cst_16 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_17 : Ref sig .tc := ⟨.hbm, 117, rfl⟩
abbrev main_v84 : Ref sig .tc := ⟨.hbm, 118, rfl⟩
abbrev main_v85 : Ref sig .tc := ⟨.hbm, 119, rfl⟩
abbrev main_cst_18 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_19 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_call1_cst : Ref sig .tc := ⟨.hbm, 137, rfl⟩
abbrev main_call1_v0 : Ref sig .tc := ⟨.hbm, 138, rfl⟩
abbrev main_v101 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KerHost.lean ====
/-
  What the host operations around the two regions leave in the buffers the regions read.

  Before each region the host gathers, for every edge, the feature row of the edge's source node (negative ids wrapped
  once by the node count), adds the gathered rows into the row of the edge's destination node, counts the edges arriving
  at each node, and divides each sum by the count, or by one where no edge arrives: the neighbours' mean. The chain is
  the same before both regions and is carried here as ONE function `aggMean` of the feature array and the two id
  vectors; nothing below opens it. The three row parameters of a layer are the 128-vectors viewed as 1 x 128 arrays.
  The feature array of the second region is the first region's output; every other array a region reads is an argument
  of the program, which no host operation and no region writes.
-/
import proofs.«143549_j6743098655467_1_alg».proof.Proof.Gen.KernelIdeal.Frame
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.ShloMosaic.StableHlo Idealize.SL.Sem

variable {F : FTy → Type} [FloatOps F]

/-- The edges' source ids: row 0 of the edge array. -/
def srcIds (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- The edges' destination ids: row 1 of the edge array. -/
def dstIds (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- The neighbours' mean of a feature array along the edges `src → dst`: gathered source rows summed into their
    destinations, over the number of arriving edges (at least one). -/
def aggMean (h : (⟨S50000x128, .f32⟩ : BufTy).Contents (Elt F)) (src dst : (⟨S800000, .i32⟩ : BufTy).Contents (Elt F)) :
    (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (maximumf
        (Host.scatterAdd scatter_S50000x1_S800000x1_S800000x1_1_0_0_1
          (broadcastInDim S50000x1 ![] bcast_S_S50000x1 (constant S_ .f32 0x00000000#32))
          (broadcastInDim S800000x1 ![0] bcast_S800000_S800000x1_0 dst)
          (broadcastInDim S800000x1 ![] bcast_S_S800000x1 (constant S_ .f32 0x3F800000#32)))
        (broadcastInDim S50000x1 ![] bcast_S_S50000x1 (constant S_ .f32 0x3F800000#32))))

/-- A 128-vector viewed as a 1 x 128 array. -/
def asRow (v : (⟨S128, .f32⟩ : BufTy).Contents (Elt F)) : (⟨S1x128, .f32⟩ : BufTy).Contents (Elt F) :=
  shapeCast S1x128 v shapeCasts_S128_S1x128

variable (m : (ℓ : Loc nD τ sig) → Buf (Elt F) ℓ) (ρ : Dev nD → PrngReg)

/-! ## The first region's entry -/

theorem entry0_src (c : Dev nD) : W1 m ρ c (Proc.devRef .tc main_v1) = srcIds (m ((c : Thread nD τ).loc main_arg1)) := by
  show StableHlo.after hostOps0 (W0 m ρ c) (Proc.devRef .tc main_v1) = _
  after_results_simp
  rfl

theorem entry0_dst (c : Dev nD) : W1 m ρ c (Proc.devRef .tc main_v3) = dstIds (m ((c : Thread nD τ).loc main_arg1)) := by
  show StableHlo.after hostOps0 (W0 m ρ c) (Proc.devRef .tc main_v3) = _
  after_results_simp
  rfl

theorem entry0_mean (c : Dev nD) :
    W1 m ρ c (Proc.devRef .tc main_v21)
      = aggMean (m ((c : Thread nD τ).loc main_arg0)) (srcIds (m ((c : Thread nD τ).loc main_arg1))) (dstIds (m ((c : Thread nD τ).loc main_arg1))) := by
  show StableHlo.after hostOps0 (W0 m ρ c) (Proc.devRef .tc main_v21) = _
  after_results_simp
  rfl

theorem entry0_b (c : Dev nD) : W1 m ρ c (Proc.devRef .tc main_v22) = asRow (m ((c : Thread nD τ).loc main_arg4)) := by
  show StableHlo.after hostOps0 (W0 m ρ c) (Proc.devRef .tc main_v22) = _
  after_results_simp
  rfl

theorem entry0_g (c : Dev nD) : W1 m ρ c (Proc.devRef .tc main_v23) = asRow (m ((c : Thread nD τ).loc main_arg5)) := by
  show StableHlo.after hostOps0 (W0 m ρ c) (Proc.devRef .tc main_v23) = _
  after_results_simp
  rfl

theorem entry0_be (c : Dev nD) : W1 m ρ c (Proc.devRef .tc main_v24) = asRow (m ((c : Thread nD τ).loc main_arg6)) := by
  show StableHlo.after hostOps0 (W0 m ρ c) (Proc.devRef .tc main_v24) = _
  after_results_simp
  rfl

theorem entry0_x (c : Dev nD) : W1 m ρ c (Proc.devRef .tc main_arg0) = m ((c : Thread nD τ).loc main_arg0) := by
  show StableHlo.after hostOps0 (W0 m ρ c) (Proc.devRef .tc main_arg0) = _
  after_results_simp

theorem entry0_Wl (c : Dev nD) : W1 m ρ c (Proc.devRef .tc main_arg2) = m ((c : Thread nD τ).loc main_arg2) := by
  show StableHlo.after hostOps0 (W0 m ρ c) (Proc.devRef .tc main_arg2) = _
  after_results_simp

theorem entry0_Wr (c : Dev nD) : W1 m ρ c (Proc.devRef .tc main_arg3) = m ((c : Thread nD τ).loc main_arg3) := by
  show StableHlo.after hostOps0 (W0 m ρ c) (Proc.devRef .tc main_arg3) = _
  after_results_simp

/-! ## The second region's entry, over what the first region's exit holds -/

theorem entry1_mean (c : Dev nD) :
    W3 m ρ c (Proc.devRef .tc main_v43)
      = aggMean (W2 m ρ c (Proc.devRef .tc main_v25)) (W2 m ρ c (Proc.devRef .tc main_v1)) (W2 m ρ c (Proc.devRef .tc main_v3)) := by
  show StableHlo.after hostOps1 (W2 m ρ c) (Proc.devRef .tc main_v43) = _
  after_results_simp
  rfl

theorem entry1_b (c : Dev nD) : W3 m ρ c (Proc.devRef .tc main_v44) = asRow (W2 m ρ c (Proc.devRef .tc main_arg9)) := by
  show StableHlo.after hostOps1 (W2 m ρ c) (Proc.devRef .tc main_v44) = _
  after_results_simp
  rfl

theorem entry1_g (c : Dev nD) : W3 m ρ c (Proc.devRef .tc main_v45) = asRow (W2 m ρ c (Proc.devRef .tc main_arg10)) := by
  show StableHlo.after hostOps1 (W2 m ρ c) (Proc.devRef .tc main_v45) = _
  after_results_simp
  rfl

theorem entry1_be (c : Dev nD) : W3 m ρ c (Proc.devRef .tc main_v46) = asRow (W2 m ρ c (Proc.devRef .tc main_arg11)) := by
  show StableHlo.after hostOps1 (W2 m ρ c) (Proc.devRef .tc main_v46) = _
  after_results_simp
  rfl

theorem entry1_h (c : Dev nD) : W3 m ρ c (Proc.devRef .tc main_v25) = W2 m ρ c (Proc.devRef .tc main_v25) := by
  show StableHlo.after hostOps1 (W2 m ρ c) (Proc.devRef .tc main_v25) = _
  after_results_simp

theorem entry1_Wl (c : Dev nD) : W3 m ρ c (Proc.devRef .tc main_arg7) = W2 m ρ c (Proc.devRef .tc main_arg7) := by
  show StableHlo.after hostOps1 (W2 m ρ c) (Proc.devRef .tc main_arg7) = _
  after_results_simp

theorem entry1_Wr (c : Dev nD) : W3 m ρ c (Proc.devRef .tc main_arg8) = W2 m ρ c (Proc.devRef .tc main_arg8) := by
  show StableHlo.after hostOps1 (W2 m ρ c) (Proc.devRef .tc main_arg8) = _
  after_results_simp

/-- A buffer that is none of the first region's arrays and that no host operation before it writes is, at the first
    region's exit, what the program was launched with. -/
theorem exit0_arg (c : Dev nD) (b : Ref sig .tc) (hb : ∀ w, Pipeline.arrRef spec0 w ≠ b)
    (h0 : W1 m ρ c (Proc.devRef .tc b) = m ((c : Thread nD τ).loc b)) :
    W2 m ρ c (Proc.devRef .tc b) = m ((c : Thread nD τ).loc b) :=
  (W2_of_ne m ρ c b hb).trans h0

end Cert.KernelIdeal.HostValue

end
-- ==== Proof.SageRow.lean ====
/-
  One GraphSAGE layer's dense stage, one row at a time, over the extended reals.

  A node's row of the layer's output depends on two rows only -- the node's own features `xr` and the mean `mr` of its
  in-neighbours' features -- and on the layer's parameters: the affine part is `mr · Wl + xr · Wr + b`, and the result is
  that row normalised (its mean subtracted, scaled by the reciprocal square root of its variance plus a fixed epsilon),
  scaled by `g`, shifted by `be` and clipped below at zero. The float literals (128, the epsilon, the zero of the clip)
  stay as their bit patterns: both programs print the same words, so they are never evaluated.
-/
import Idealize.ShloMosaic.PureOps.Ideal
import Idealize.ShloMosaic.PureOps.Ideal.Laws
import Idealize.ShloMosaic.Lib.ValueIdx

noncomputable section

namespace Cert.Sage

open Idealize.ShloMosaic

/-- The affine part of a row at column `j`: the neighbours' mean through `Wl`, the node's own row through `Wr`, plus the bias. -/
def lin (mr xr : Fin 128 → EReal) (Wl Wr : Fin 128 → Fin 128 → EReal) (b : Fin 128 → EReal) (j : Fin 128) : EReal :=
  (∑ k : Fin 128, mr k * Wl k j) + (∑ k : Fin 128, xr k * Wr k j) + b j

/-- A row's mean: its sum over the 128 columns divided by the literal 128. -/
def rowMean (h : Fin 128 → EReal) : EReal :=
  Ideal.div (∑ q : Fin 128, h q) (Ideal.ofBits .f32 0x43000000#32)

/-- A row's variance: the mean of the squared deviations from the row's mean. -/
def rowVar (h : Fin 128 → EReal) : EReal :=
  Ideal.div (∑ q : Fin 128, (h q - rowMean h) * (h q - rowMean h)) (Ideal.ofBits .f32 0x43000000#32)

/-- The row normalised, scaled and shifted, before the clip. -/
def normed (h g : Fin 128 → EReal) (j : Fin 128) : EReal :=
  (h j - rowMean h) * Ideal.rsqrt (rowVar h + Ideal.ofBits .f32 0x3727C5AC#32) * g j

/-- One output row of the layer at column `j`. -/
def row (mr xr : Fin 128 → EReal) (Wl Wr : Fin 128 → Fin 128 → EReal) (b g be : Fin 128 → EReal) (j : Fin 128) : EReal :=
  max (normed (lin mr xr Wl Wr b) g j + be j) (Ideal.ofBits .f32 0x00000000#32)

end Cert.Sage

end
-- ==== Proof.LibColumnLayout.lean ====
/-
  Column vectors read at an index given by coordinates: an `[a]` vector viewed as the column `[a, 1]` and back, and a
  column `[a, 1]` broadcast along its rows to `[a, b]`. These are the keepdims forms of a row reduction: the reduction
  leaves one value per row, the cast makes it a column, the broadcast spreads it over the row again. Each lemma is the
  library's index lemma for the operation (`shapeCast_apply`, `broadcastTo_apply`) with both indices written by
  coordinates (`ix1`, `ix2`), so that it applies to a printed operation by unification, at any extents.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a]` vector cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` cast to the vector `[a]` reads, at `p`, the operand at `(p, 0)`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing an `[a, b]` array along its rows (axis 1): the source index over the result index `p` with coordinate `k` on
    the dropped axis is `(p, k)`. -/
theorem lift_row {a b : ℕ} (h : (⟨2, ![a, b]⟩ : Shape).Reduces [1] ⟨1, ![a]⟩) (p : Fin a) (k : Fin b) :
    h.lift (ix1 p) k = ix2 p k := by
  funext d
  apply Fin.ext
  match d with
  | ⟨0, _⟩ => rfl
  | ⟨1, _⟩ => rfl

end Idealize.ShloMosaic.ValueIdx
-- ==== Proof.KerPay.lean ====
/-
  What one grid point of the dense GraphSAGE stage stores, read at one element.

  A point holds a block of 2000 rows of the node features `x0` and of the neighbours' mean `x1`, the two 128 x 128 weight
  matrices `x2` (applied to the mean) and `x3` (applied to the features), and three rows of 128 parameters: the bias
  `x4`, the scale `x5` and the shift `x6`. The body casts its matrix operands to a narrower float format, which changes
  nothing over the extended reals, multiplies them into a zero accumulator, adds the bias row, subtracts each row's
  mean, divides by the square root of each row's variance plus a fixed epsilon, scales, shifts and clips below at zero.
  Row `p` of the result therefore depends on row `p` of the two blocks only, and is the specification's `Cert.Sage.row`
  of those two rows. The reading goes operation by operation: a matrix product into zero is the sum over the contracted
  coordinate; a sum along the lanes of a row is a sum over the 128 columns; the keepdims column is cast from the vector
  of row sums and broadcast back over the row.
-/
import proofs.«143549_j6743098655467_1_alg».proof.Proof.Gen.KernelIdeal.Skeleton
import proofs.«143549_j6743098655467_1_alg».proof.Proof.SageRow
import proofs.«143549_j6743098655467_1_alg».proof.Proof.LibColumnLayout
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Facts₀ Cert.KernelIdeal.Facts Idealize.ShloMosaic Idealize.ShloMosaic.ValueIdx

/-! ## The matrix product into zero, at an element -/

theorem lhs_axis0 (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhs_axis1 (i : S2000x128.Idx) (k : dot_S2000x128_S128x128_S2000x128_1_0_0_1_n_n.contr.Idx) :
    (dot_S2000x128_S128x128_S2000x128_1_0_0_1_n_n.lhsIdx i k 1).val = (k ⟨0, by decide⟩).val :=
  dot_S2000x128_S128x128_S2000x128_1_0_0_1_n_n.lhsIdx_val_of_single rfl i k

theorem rhs_axis0 (i : S2000x128.Idx) (k : dot_S2000x128_S128x128_S2000x128_1_0_0_1_n_n.contr.Idx) :
    (dot_S2000x128_S128x128_S2000x128_1_0_0_1_n_n.rhsIdx i k 0).val = (k ⟨0, by decide⟩).val :=
  dot_S2000x128_S128x128_S2000x128_1_0_0_1_n_n.rhsIdx_val_of_single rfl i k

theorem rhs_axis1 (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A block of 2000 rows times a 128 x 128 matrix, accumulated into zero: entry `(p, q)` is the sum over the 128
    contracted coordinates of row `p` of the left factor against column `q` of the right. -/
theorem matmul_zero_apply {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply,
    ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q)
      ((ValueIdx.contrEquiv1 dot_S2000x128_S128x128_S2000x128_1_0_0_1_n_n 128 rfl rfl).symm k) = ix2 p k :=
    funext fun a => Fin.ext (by
      match a with
      | ⟨0, _⟩ => exact lhs_axis0 _ _
      | ⟨1, _⟩ => exact (lhs_axis1 _ _).trans hk)
  have er : dot_S2000x128_S128x128_S2000x128_1_0_0_1_n_n.rhsIdx (ix2 p q)
      ((ValueIdx.contrEquiv1 dot_S2000x128_S128x128_S2000x128_1_0_0_1_n_n 128 rfl rfl).symm k) = ix2 k q :=
    funext fun a => Fin.ext (by
      match a with
      | ⟨0, _⟩ => exact (rhs_axis0 _ _).trans hk
      | ⟨1, _⟩ => exact rhs_axis1 _ _)
  rw [el, er]

/-! ## The affine part of a block -/

/-- The mean block through `x2`, plus the feature block through `x3`, plus the bias row over every row. -/
def affine (x0 x1 : FVec Ideal S2000x128 .f32) (x2 x3 : FVec Ideal S128x128 .f32) (x4 : FVec Ideal S1x128 .f32) :
    FVec Ideal S2000x128 .f32 :=
  addf (addf
      (matmul dot_S2000x128_S128x128_S2000x128_1_0_0_1_n_n none
        (truncf .bf16 (shapeCast S2000x128 x1 shapeCasts_S2000x128_S2000x128) bitsLt_bf16_f32) (truncf .bf16 x2 bitsLt_bf16_f32)
        (constant S2000x128 .f32 0x00000000#32))
      (matmul dot_S2000x128_S128x128_S2000x128_1_0_0_1_n_n none
        (truncf .bf16 x0 bitsLt_bf16_f32) (truncf .bf16 x3 bitsLt_bf16_f32) (constant S2000x128 .f32 0x00000000#32)))
    (broadcastTo S2000x128 (shapeCast S1x128 x4 shapeCasts_S1x128_S1x128) broadcasts_S1x128_S2000x128)

theorem affine_apply (x0 x1 : FVec Ideal S2000x128 .f32) (x2 x3 : FVec Ideal S128x128 .f32) (x4 : FVec Ideal S1x128 .f32)
    (p : Fin 2000) (q : Fin 128) :
    affine x0 x1 x2 x3 x4 (ix2 p q)
      = Cert.Sage.lin (fun k => x1 (ix2 p k)) (fun k => x0 (ix2 p k)) (fun k j => x2 (ix2 k j)) (fun k j => x3 (ix2 k j))
          (fun j => x4 (ix2 (0 : Fin 1) j)) q := by
  show matmul dot_S2000x128_S128x128_S2000x128_1_0_0_1_n_n none _ _ (constant S2000x128 .f32 0x00000000#32) (ix2 p q)
      + matmul dot_S2000x128_S128x128_S2000x128_1_0_0_1_n_n none _ _ (constant S2000x128 .f32 0x00000000#32) (ix2 p q)
      + broadcastTo S2000x128 (shapeCast S1x128 x4 shapeCasts_S1x128_S1x128) broadcasts_S1x128_S2000x128 (ix2 p q) = _
  rw [matmul_zero_apply, matmul_zero_apply, broadcastTo_1b_ab_apply, shapeCast_self, shapeCast_self]
  rfl

/-- The second region casts the feature block to its own shape as well before narrowing it; the value is the same. -/
def affine1 (x0 x1 : FVec Ideal S2000x128 .f32) (x2 x3 : FVec Ideal S128x128 .f32) (x4 : FVec Ideal S1x128 .f32) :
    FVec Ideal S2000x128 .f32 :=
  addf (addf
      (matmul dot_S2000x128_S128x128_S2000x128_1_0_0_1_n_n none
        (truncf .bf16 (shapeCast S2000x128 x1 shapeCasts_S2000x128_S2000x128) bitsLt_bf16_f32) (truncf .bf16 x2 bitsLt_bf16_f32)
        (constant S2000x128 .f32 0x00000000#32))
      (matmul dot_S2000x128_S128x128_S2000x128_1_0_0_1_n_n none
        (truncf .bf16 (shapeCast S2000x128 x0 shapeCasts_S2000x128_S2000x128) bitsLt_bf16_f32) (truncf .bf16 x3 bitsLt_bf16_f32)
        (constant S2000x128 .f32 0x00000000#32)))
    (broadcastTo S2000x128 (shapeCast S1x128 x4 shapeCasts_S1x128_S1x128) broadcasts_S1x128_S2000x128)

theorem affine1_apply (x0 x1 : FVec Ideal S2000x128 .f32) (x2 x3 : FVec Ideal S128x128 .f32) (x4 : FVec Ideal S1x128 .f32)
    (p : Fin 2000) (q : Fin 128) :
    affine1 x0 x1 x2 x3 x4 (ix2 p q)
      = Cert.Sage.lin (fun k => x1 (ix2 p k)) (fun k => x0 (ix2 p k)) (fun k j => x2 (ix2 k j)) (fun k j => x3 (ix2 k j))
          (fun j => x4 (ix2 (0 : Fin 1) j)) q := by
  show matmul dot_S2000x128_S128x128_S2000x128_1_0_0_1_n_n none _ _ (constant S2000x128 .f32 0x00000000#32) (ix2 p q)
      + matmul dot_S2000x128_S128x128_S2000x128_1_0_0_1_n_n none _ _ (constant S2000x128 .f32 0x00000000#32) (ix2 p q)
      + broadcastTo S2000x128 (shapeCast S1x128 x4 shapeCasts_S1x128_S1x128) broadcasts_S1x128_S2000x128 (ix2 p q) = _
  rw [matmul_zero_apply, matmul_zero_apply, broadcastTo_1b_ab_apply]
  simp only [shapeCast_self]
  rfl

/-! ## A row's mean as the body takes it: lane sum, keepdims column, division by 128 -/

/-- The column of row means of a block. -/
def meanCol (v : FVec Ideal S2000x128 .f32) : FVec Ideal S2000x1 .f32 :=
  divf (shapeCast S2000x1 (multiReduction .add [1] S2000 v 0x00000000#32 reduces_S2000x128_S2000 (.inl rfl) rfl) shapeCasts_S2000_S2000x1)
    (broadcast S2000x1 (Scalar.ofBits .f32 0x43000000#32))

theorem meanCol_apply (v : FVec Ideal S2000x128 .f32) (p : Fin 2000) (u : Fin 1) :
    meanCol v (ix2 p u) = Cert.Sage.rowMean (fun j => v (ix2 p j)) := by
  show Ideal.div (shapeCast S2000x1 (multiReduction .add [1] S2000 v 0x00000000#32 reduces_S2000x128_S2000 (.inl rfl) rfl)
      shapeCasts_S2000_S2000x1 (ix2 p u)) (Ideal.ofBits .f32 0x43000000#32) = _
  rw [shapeCast_a_a1_apply]
  refine congrArg (fun s => Ideal.div s (Ideal.ofBits .f32 0x43000000#32)) ?_
  refine (Ideal.multiReduction_add_single v 0x00000000#32 reduces_S2000x128_S2000 (.inl rfl) rfl (ix1 p)).trans ?_
  exact Finset.sum_congr rfl fun k _ => congrArg v (lift_row reduces_S2000x128_S2000 p k)

/-- The block with each row's mean subtracted. -/
def centred (h : FVec Ideal S2000x128 .f32) : FVec Ideal S2000x128 .f32 :=
  subf h (broadcastTo S2000x128 (meanCol h) broadcasts_S2000x1_S2000x128)

theorem centred_apply (h : FVec Ideal S2000x128 .f32) (p : Fin 2000) (q : Fin 128) :
    centred h (ix2 p q) = h (ix2 p q) - Cert.Sage.rowMean (fun j => h (ix2 p j)) := by
  show h (ix2 p q) - broadcastTo S2000x128 (meanCol h) broadcasts_S2000x1_S2000x128 (ix2 p q) = _
  rw [broadcastTo_a1_ab_apply, meanCol_apply]

/-- The column of row variances: the row means of the squared centred block. -/
theorem varCol_apply (h : FVec Ideal S2000x128 .f32) (p : Fin 2000) (u : Fin 1) :
    meanCol (mulf (centred h) (centred h)) (ix2 p u) = Cert.Sage.rowVar (fun j => h (ix2 p j)) := by
  rw [meanCol_apply]
  show Ideal.div (∑ k : Fin 128, centred h (ix2 p k) * centred h (ix2 p k)) (Ideal.ofBits .f32 0x43000000#32)
    = Ideal.div (∑ k : Fin 128, (h (ix2 p k) - Cert.Sage.rowMean fun j => h (ix2 p j)) * (h (ix2 p k) - Cert.Sage.rowMean fun j => h (ix2 p j)))
        (Ideal.ofBits .f32 0x43000000#32)
  simp only [centred_apply]

/-! ## The normalised, scaled block -/

/-- The centred block over the square root of variance plus epsilon, row by row, times the scale row. -/
def normScale (h : FVec Ideal S2000x128 .f32) (x5 : FVec Ideal S1x128 .f32) : FVec Ideal S2000x128 .f32 :=
  mulf (mulf (centred h)
      (broadcastTo S2000x128
        (rsqrt (addf (meanCol (mulf (centred h) (centred h))) (broadcast S2000x1 (Scalar.ofBits .f32 0x3727C5AC#32))))
        broadcasts_S2000x1_S2000x128))
    (broadcastTo S2000x128 (shapeCast S1x128 x5 shapeCasts_S1x128_S1x128) broadcasts_S1x128_S2000x128)

theorem normScale_apply (h : FVec Ideal S2000x128 .f32) (x5 : FVec Ideal S1x128 .f32) (p : Fin 2000) (q : Fin 128) :
    normScale h x5 (ix2 p q) = Cert.Sage.normed (fun j => h (ix2 p j)) (fun j => x5 (ix2 (0 : Fin 1) j)) q := by
  show centred h (ix2 p q)
      * broadcastTo S2000x128
          (rsqrt (addf (meanCol (mulf (centred h) (centred h))) (broadcast S2000x1 (Scalar.ofBits .f32 0x3727C5AC#32))))
          broadcasts_S2000x1_S2000x128 (ix2 p q)
      * broadcastTo S2000x128 (shapeCast S1x128 x5 shapeCasts_S1x128_S1x128) broadcasts_S1x128_S2000x128 (ix2 p q) = _
  rw [broadcastTo_a1_ab_apply, broadcastTo_1b_ab_apply, shapeCast_self, centred_apply]
  show (h (ix2 p q) - Cert.Sage.rowMean fun j => h (ix2 p j))
      * Ideal.rsqrt (meanCol (mulf (centred h) (centred h)) (ix2 p (0 : Fin 1)) + Ideal.ofBits .f32 0x3727C5AC#32)
      * x5 (ix2 (0 : Fin 1) q) = _
  rw [varCol_apply]
  rfl

/-! ## The two printed payloads are these terms, and the stored element -/

theorem pay0_inner (x0 x1 : FVec Ideal S2000x128 .f32) (x2 x3 : FVec Ideal S128x128 .f32) (x4 x5 : FVec Ideal S1x128 .f32) :
    Gen.k0_pay2 (F := Ideal) x0 x1 x2 x3 x4 x5 = normScale (affine x0 x1 x2 x3 x4) x5 := rfl

theorem pay1_inner (x0 x1 : FVec Ideal S2000x128 .f32) (x2 x3 : FVec Ideal S128x128 .f32) (x4 x5 : FVec Ideal S1x128 .f32) :
    Gen.k1_pay2 (F := Ideal) x0 x1 x2 x3 x4 x5 = normScale (affine1 x0 x1 x2 x3 x4) x5 := rfl

/-- The shift row added and the clip at zero, at an element. -/
theorem shiftClip_apply (v : FVec Ideal S2000x128 .f32) (x6 : FVec Ideal S1x128 .f32) (p : Fin 2000) (q : Fin 128) :
    maximumf (addf v (broadcastTo S2000x128 (shapeCast S1x128 x6 shapeCasts_S1x128_S1x128) broadcasts_S1x128_S2000x128))
        (broadcast S2000x128 (Scalar.ofBits .f32 0x00000000#32)) (ix2 p q)
      = max (v (ix2 p q) + x6 (ix2 (0 : Fin 1) q)) (Ideal.ofBits .f32 0x00000000#32) := by
  show max (v (ix2 p q) + broadcastTo S2000x128 (shapeCast S1x128 x6 shapeCasts_S1x128_S1x128) broadcasts_S1x128_S2000x128 (ix2 p q))
      (Ideal.ofBits .f32 0x00000000#32) = _
  rw [broadcastTo_1b_ab_apply, shapeCast_self]

/-- What a point of the first region stores at `(p, q)`: the specification's row of rows `p` of its two blocks. -/
theorem pay0_apply (x0 x1 : FVec Ideal S2000x128 .f32) (x2 x3 : FVec Ideal S128x128 .f32) (x4 x5 x6 : FVec Ideal S1x128 .f32)
    (p : Fin 2000) (q : Fin 128) :
    Gen.k0_pay1 (F := Ideal) (Gen.k0_pay2 (F := Ideal) x0 x1 x2 x3 x4 x5) x6 (ix2 p q)
      = Cert.Sage.row (fun k => x1 (ix2 p k)) (fun k => x0 (ix2 p k)) (fun k j => x2 (ix2 k j)) (fun k j => x3 (ix2 k j))
          (fun j => x4 (ix2 (0 : Fin 1) j)) (fun j => x5 (ix2 (0 : Fin 1) j)) (fun j => x6 (ix2 (0 : Fin 1) j)) q := by
  rw [pay0_inner]
  refine (shiftClip_apply _ x6 p q).trans ?_
  rw [normScale_apply]
  simp only [affine_apply]
  rfl

/-- The second region's point stores the same function of its own blocks. -/
theorem pay1_apply (x0 x1 : FVec Ideal S2000x128 .f32) (x2 x3 : FVec Ideal S128x128 .f32) (x4 x5 x6 : FVec Ideal S1x128 .f32)
    (p : Fin 2000) (q : Fin 128) :
    Gen.k1_pay1 (F := Ideal) (Gen.k1_pay2 (F := Ideal) x0 x1 x2 x3 x4 x5) x6 (ix2 p q)
      = Cert.Sage.row (fun k => x1 (ix2 p k)) (fun k => x0 (ix2 p k)) (fun k j => x2 (ix2 k j)) (fun k j => x3 (ix2 k j))
          (fun j => x4 (ix2 (0 : Fin 1) j)) (fun j => x5 (ix2 (0 : Fin 1) j)) (fun j => x6 (ix2 (0 : Fin 1) j)) q := by
  rw [pay1_inner]
  refine (shiftClip_apply _ x6 p q).trans ?_
  rw [normScale_apply]
  simp only [affine1_apply]
  rfl

end Cert.KernelIdeal.PayValue

end
-- ==== Proof.KerRegion.lean ====
/-
  From blocks to the array, for the idealized kernel's two row-blocked stages.

  Each stage runs one dense GraphSAGE layer over a grid of 25 points. Point `t` reads rows `2000·t … 2000·t + 1999` of the node
  features and of the neighbours' mean, the whole 128×128 weight matrices and the three 1×128 parameter rows, and writes one
  2000×128 block whose rows are the same rows of the result. A row of the result depends on the same row of the two row-blocked
  operands only (`Cert.Sage.row`), so what point `t` writes back is block `t` of ONE function of the whole arrays, `layerK`; and
  the 25 blocks tile the 50000 rows, so the output array ends holding `layerK` of the stage's input arrays (`final0`, `final1`).

  The steps, per stage: the index maps' values decided once over the 25 points (the two row-blocked inputs move with the output,
  every other block index is zero, and every block row index below 25 is some point's); each input block read at the array
  rows the output block's rows sit on; the payload's row (the payload lemmas of `Cert.KernelIdeal.PayValue`) rewritten to
  `layerK`'s row; membership in a block as per-axis bounds; the cover by division (row `r` lies in block `r / 2000`).
-/
import proofs.«143549_j6743098655467_1_alg».proof.Proof.Gen.KernelIdeal.Frame
import proofs.«143549_j6743098655467_1_alg».proof.Proof.SageRow
import proofs.«143549_j6743098655467_1_alg».proof.Proof.KerPay
import Idealize.ShloMosaic.Lib.Pipeline.Value
import Idealize.ShloMosaic.Lib.ValueIdx

noncomputable section

namespace Cert.KernelIdeal.RegionValue
open Cert.KernelIdeal Cert.KernelIdeal.Gen Idealize.ShloMosaic Idealize.ShloMosaic.TcCoe Idealize.ShloMosaic.ValueIdx Idealize.SL.Sem
open Idealize.ShloMosaic.Pipeline (Dat Cfg Window)

/-- The layer on whole arrays: output element `(r, q)` is column `q` of the layer's row computed from row `r` of the neighbours' mean
    and row `r` of the node features, with the whole parameters. -/
def layerK (x mean : S50000x128.Idx → EReal) (Wl Wr : S128x128.Idx → EReal) (b g be : S1x128.Idx → EReal) :
    S50000x128.Idx → EReal :=
  fun i => Cert.Sage.row (fun k => mean (ix2 (i 0) k)) (fun k => x (ix2 (i 0) k)) (fun k j => Wl (ix2 k j)) (fun k j => Wr (ix2 k j))
    (fun j => b (ix2 (0 : Fin 1) j)) (fun j => g (ix2 (0 : Fin 1) j)) (fun j => be (ix2 (0 : Fin 1) j)) (i 1)

/-- The layer at an index given by its two coordinates. -/
theorem layerK_apply (x mean : S50000x128.Idx → EReal) (Wl Wr : S128x128.Idx → EReal) (b g be : S1x128.Idx → EReal)
    (p : Fin 50000) (q : Fin 128) :
    layerK x mean Wl Wr b g be (ix2 p q)
      = Cert.Sage.row (fun k => mean (ix2 p k)) (fun k => x (ix2 p k)) (fun k j => Wl (ix2 k j)) (fun k j => Wr (ix2 k j))
          (fun j => b (ix2 (0 : Fin 1) j)) (fun j => g (ix2 (0 : Fin 1) j)) (fun j => be (ix2 (0 : Fin 1) j)) q := rfl

/-- The two zero offsets of a whole-buffer access, as the constant function. -/
theorem zero_offsets : (![0, 0] : Fin 2 → Nat) = fun _ => 0 := funext fun a => by fin_cases a <;> rfl

/-- Row `p` of block `r` (of 25 blocks of 2000 rows) as a row of the 50000-row array. -/
def blockRow (r : Nat) (hr : r ≤ 24) (p : Fin 2000) : Fin 50000 := ⟨r * 2000 + p.val, by have := p.isLt; omega⟩

variable (V : (c : Dev nD) → (b : Ref sig .tc) → Buf (Elt Ideal) ((c : Thread nD τ).loc b))

/-! ## One row of the layer, from blocks that hold the rows of block `r` -/

omit V in
/-- When the two row-blocked operands' blocks hold rows `2000·r + p` of their arrays and the parameter blocks hold the whole
    parameters, the row the body computes at block row `p` is row `2000·r + p` of the whole-array layer. -/
theorem row_block (x0 x1 : FVec Ideal S2000x128 .f32) (x2 x3 : FVec Ideal S128x128 .f32) (x4 x5 x6 : FVec Ideal S1x128 .f32)
    (x mean : S50000x128.Idx → EReal) (Wl Wr : S128x128.Idx → EReal) (b g be : S1x128.Idx → EReal)
    (r : Nat) (hr : r ≤ 24)
    (h0 : ∀ (p : Fin 2000) (k : Fin 128), x0 (ix2 p k) = x (ix2 (blockRow r hr p) k))
    (h1 : ∀ (p : Fin 2000) (k : Fin 128), x1 (ix2 p k) = mean (ix2 (blockRow r hr p) k))
    (h2 : ∀ k j : Fin 128, x2 (ix2 k j) = Wl (ix2 k j))
    (h3 : ∀ k j : Fin 128, x3 (ix2 k j) = Wr (ix2 k j))
    (h4 : ∀ (z : Fin 1) (j : Fin 128), x4 (ix2 z j) = b (ix2 z j))
    (h5 : ∀ (z : Fin 1) (j : Fin 128), x5 (ix2 z j) = g (ix2 z j))
    (h6 : ∀ (z : Fin 1) (j : Fin 128), x6 (ix2 z j) = be (ix2 z j))
    (p : Fin 2000) (q : Fin 128) :
    Cert.Sage.row (fun k => x1 (ix2 p k)) (fun k => x0 (ix2 p k)) (fun k j => x2 (ix2 k j)) (fun k j => x3 (ix2 k j))
        (fun j => x4 (ix2 (0 : Fin 1) j)) (fun j => x5 (ix2 (0 : Fin 1) j)) (fun j => x6 (ix2 (0 : Fin 1) j)) q
      = layerK x mean Wl Wr b g be (ix2 (blockRow r hr p) q) := by
  rw [layerK_apply]
  have e0 : (fun k => x0 (ix2 p k)) = fun k => x (ix2 (blockRow r hr p) k) := funext fun k => h0 p k
  have e1 : (fun k => x1 (ix2 p k)) = fun k => mean (ix2 (blockRow r hr p) k) := funext fun k => h1 p k
  have e2 : (fun k j => x2 (ix2 k j)) = fun k j => Wl (ix2 k j) := funext fun k => funext fun j => h2 k j
  have e3 : (fun k j => x3 (ix2 k j)) = fun k j => Wr (ix2 k j) := funext fun k => funext fun j => h3 k j
  have e4 : (fun j => x4 (ix2 (0 : Fin 1) j)) = fun j => b (ix2 (0 : Fin 1) j) := funext fun j => h4 0 j
  have e5 : (fun j => x5 (ix2 (0 : Fin 1) j)) = fun j => g (ix2 (0 : Fin 1) j) := funext fun j => h5 0 j
  have e6 : (fun j => x6 (ix2 (0 : Fin 1) j)) = fun j => be (ix2 (0 : Fin 1) j) := funext fun j => h6 0 j
  rw [e0, e1, e2, e3, e4, e5, e6]

/-! ## Region 0: the printed index maps, decided over the grid -/

/-- At every point: the two row-blocked inputs' block row index is the output's, every other block index of every window is
    zero, and the output's block row index is at most 24. -/
theorem idx_facts0 : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 24 ∧ win0_7.index t (1 : Fin 2) = 0 :=
  (by decide +kernel : ∀ t : Fin grid0.N, _)

/-- Every block row index below 25 is some point's. -/
theorem idx_onto0 : ∀ q : Fin 25, ∃ t : Fin cfg0.N, win0_7.index t = ![q.val, 0] :=
  (by decide +kernel : ∀ q : Fin 25, ∃ t : Fin grid0.N, win0_7.index t = ![q.val, 0])

/-- The output's block row index at a point is at most 24. -/
theorem idx7_le0 (t : Fin cfg0.N) : win0_7.index t (0 : Fin 2) ≤ 24 := (idx_facts0 t).2.2.2.2.2.2.2.2.2.2.2.2.2.2.1

/-! ## Region 0: each input block read where the output block's rows sit -/

/-- Point `t`'s block of the node features holds rows `2000·(block index) + p` of the array. -/
theorem feat_block0 (c : Dev nD) (t : Fin cfg0.N) (p : Fin 2000) (k : Fin 128) :
    iblk0 (F := Ideal) V c 0 t (ix2 p k) = V c main_arg0 (ix2 (blockRow (win0_7.index t (0 : Fin 2)) (idx7_le0 t) p) k) := by
  obtain ⟨e00, e01, -⟩ := idx_facts0 t
  show V c main_arg0 (((cfg0.win 0).blk t).view.emb (ix2 p k)) = V c main_arg0 _
  refine congrArg _ ?_
  funext a; apply Fin.ext
  match a with
  | ⟨0, _⟩ => show win0_0.index t (0 : Fin 2) * 2000 + 1 * p.val = win0_7.index t (0 : Fin 2) * 2000 + p.val; omega
  | ⟨1, _⟩ => show win0_0.index t (1 : Fin 2) * 128 + 1 * k.val = k.val; omega

/-- Point `t`'s block of the neighbours' mean holds the same rows of its array. -/
theorem mean_block0 (c : Dev nD) (t : Fin cfg0.N) (p : Fin 2000) (k : Fin 128) :
    iblk0 (F := Ideal) V c 1 t (ix2 p k) = V c main_v21 (ix2 (blockRow (win0_7.index t (0 : Fin 2)) (idx7_le0 t) p) k) := by
  obtain ⟨-, -, e10, e11, -⟩ := idx_facts0 t
  show V c main_v21 (((cfg0.win 1).blk t).view.emb (ix2 p k)) = V c main_v21 _
  refine congrArg _ ?_
  funext a; apply Fin.ext
  match a with
  | ⟨0, _⟩ => show win0_1.index t (0 : Fin 2) * 2000 + 1 * p.val = win0_7.index t (0 : Fin 2) * 2000 + p.val; omega
  | ⟨1, _⟩ => show win0_1.index t (1 : Fin 2) * 128 + 1 * k.val = k.val; omega

/-- Every point's block of the first weight matrix is the whole matrix. -/
theorem wl_block0 (c : Dev nD) (t : Fin cfg0.N) (k j : Fin 128) :
    iblk0 (F := Ideal) V c 2 t (ix2 k j) = V c main_arg2 (ix2 k j) := by
  obtain ⟨-, -, -, -, e20, e21, -⟩ := idx_facts0 t
  show V c main_arg2 (((cfg0.win 2).blk t).view.emb (ix2 k j)) = V c main_arg2 _
  refine congrArg _ ?_
  funext a; apply Fin.ext
  match a with
  | ⟨0, _⟩ => show win0_2.index t (0 : Fin 2) * 128 + 1 * k.val = k.val; omega
  | ⟨1, _⟩ => show win0_2.index t (1 : Fin 2) * 128 + 1 * j.val = j.val; omega

/-- Every point's block of the second weight matrix is the whole matrix. -/
theorem wr_block0 (c : Dev nD) (t : Fin cfg0.N) (k j : Fin 128) :
    iblk0 (F := Ideal) V c 3 t (ix2 k j) = V c main_arg3 (ix2 k j) := by
  obtain ⟨-, -, -, -, -, -, e30, e31, -⟩ := idx_facts0 t
  show V c main_arg3 (((cfg0.win 3).blk t).view.emb (ix2 k j)) = V c main_arg3 _
  refine congrArg _ ?_
  funext a; apply Fin.ext
  match a with
  | ⟨0, _⟩ => show win0_3.index t (0 : Fin 2) * 128 + 1 * k.val = k.val; omega
  | ⟨1, _⟩ => show win0_3.index t (1 : Fin 2) * 128 + 1 * j.val = j.val; omega

/-- Every point's block of the bias row is the whole row. -/
theorem bias_block0 (c : Dev nD) (t : Fin cfg0.N) (z : Fin 1) (j : Fin 128) :
    iblk0 (F := Ideal) V c 4 t (ix2 z j) = V c main_v22 (ix2 z j) := by
  obtain ⟨-, -, -, -, -, -, -, -, e40, e41, -⟩ := idx_facts0 t
  show V c main_v22 (((cfg0.win 4).blk t).view.emb (ix2 z j)) = V c main_v22 _
  refine congrArg _ ?_
  funext a; apply Fin.ext
  match a with
  | ⟨0, _⟩ => show win0_4.index t (0 : Fin 2) * 1 + 1 * z.val = z.val; omega
  | ⟨1, _⟩ => show win0_4.index t (1 : Fin 2) * 128 + 1 * j.val = j.val; omega

/-- Every point's block of the scale row is the whole row. -/
theorem scale_block0 (c : Dev nD) (t : Fin cfg0.N) (z : Fin 1) (j : Fin 128) :
    iblk0 (F := Ideal) V c 5 t (ix2 z j) = V c main_v23 (ix2 z j) := by
  obtain ⟨-, -, -, -, -, -, -, -, -, -, e50, e51, -⟩ := idx_facts0 t
  show V c main_v23 (((cfg0.win 5).blk t).view.emb (ix2 z j)) = V c main_v23 _
  refine congrArg _ ?_
  funext a; apply Fin.ext
  match a with
  | ⟨0, _⟩ => show win0_5.index t (0 : Fin 2) * 1 + 1 * z.val = z.val; omega
  | ⟨1, _⟩ => show win0_5.index t (1 : Fin 2) * 128 + 1 * j.val = j.val; omega

/-- Every point's block of the shift row is the whole row. -/
theorem shift_block0 (c : Dev nD) (t : Fin cfg0.N) (z : Fin 1) (j : Fin 128) :
    iblk0 (F := Ideal) V c 6 t (ix2 z j) = V c main_v24 (ix2 z j) := by
  obtain ⟨-, -, -, -, -, -, -, -, -, -, -, -, e60, e61, -⟩ := idx_facts0 t
  show V c main_v24 (((cfg0.win 6).blk t).view.emb (ix2 z j)) = V c main_v24 _
  refine congrArg _ ?_
  funext a; apply Fin.ext
  match a with
  | ⟨0, _⟩ => show win0_6.index t (0 : Fin 2) * 1 + 1 * z.val = z.val; omega
  | ⟨1, _⟩ => show win0_6.index t (1 : Fin 2) * 128 + 1 * j.val = j.val; omega
/-! ## Region 0: what a point writes back, the blocks' cover, the array -/

omit V in
/-- A block whose element `(p, q)` is the whole-array function `G` at row `2000·(block index) + p`, column `q`, is point
    `t`'s block of `G` as the output window reads it. -/
theorem out_block0 (X : FVec Ideal S2000x128 .f32) (G : S50000x128.Idx → EReal) (t : Fin cfg0.N)
    (h : ∀ (p : Fin 2000) (q : Fin 128), X (ix2 p q) = G (ix2 (blockRow (win0_7.index t (0 : Fin 2)) (idx7_le0 t) p) q)) :
    (cfg0.win 7).cut (grid0.coords t) X = ((cfg0.win 7).blk t).view.read (Elt Ideal) G := by
  have e71 : win0_7.index t (1 : Fin 2) = 0 := (idx_facts0 t).2.2.2.2.2.2.2.2.2.2.2.2.2.2.2
  funext j
  obtain ⟨p, q, rfl⟩ : ∃ (p : Fin 2000) (q : Fin 128), j = ix2 p q := ⟨j 0, j 1, eq_ix2 j⟩
  show X (ix2 p q) = G (((cfg0.win 7).blk t).view.emb (ix2 p q))
  rw [h]
  refine congrArg _ ?_
  funext a; apply Fin.ext
  match a with
  | ⟨0, _⟩ => show win0_7.index t (0 : Fin 2) * 2000 + p.val = win0_7.index t (0 : Fin 2) * 2000 + 1 * p.val; omega
  | ⟨1, _⟩ => show q.val = win0_7.index t (1 : Fin 2) * 128 + 1 * q.val; omega

/-- What point `t` writes back is block `t` of the layer of the region's input arrays. -/
theorem flushed0_eq (c : Dev nD) (t : Fin cfg0.N) :
    (dat0 (F := Ideal) V c).flushed 7 t = ((cfg0.win 7).blk t).view.read (Elt Ideal)
      (layerK (V c main_arg0) (V c main_v21) (V c main_arg2) (V c main_arg3) (V c main_v22) (V c main_v23) (V c main_v24)) := by
  show (cfg0.win 7).cut (grid0.coords t) ((dat0 (F := Ideal) V c).after 7 t) = _
  rw [after0_7]
  unfold out0_7
  rw [View.canon_unit_zero zero_offsets]
  simp only [View.ld_unit_zero (S := S2000x128) zero_offsets, View.ld_unit_zero (S := S128x128) zero_offsets,
    View.ld_unit_zero (S := S1x128) zero_offsets]
  refine out_block0 _ _ t fun p q => ?_
  refine (PayValue.pay0_apply _ _ _ _ _ _ _ p q).trans ?_
  exact row_block (iblk0 (F := Ideal) V c 0 t) (iblk0 (F := Ideal) V c 1 t) (iblk0 (F := Ideal) V c 2 t) (iblk0 (F := Ideal) V c 3 t)
    (iblk0 (F := Ideal) V c 4 t) (iblk0 (F := Ideal) V c 5 t) (iblk0 (F := Ideal) V c 6 t)
    (V c main_arg0) (V c main_v21) (V c main_arg2) (V c main_arg3) (V c main_v22) (V c main_v23) (V c main_v24)
    (win0_7.index t (0 : Fin 2)) (idx7_le0 t)
    (feat_block0 V c t) (mean_block0 V c t) (wl_block0 V c t) (wr_block0 V c t) (bias_block0 V c t) (scale_block0 V c t) (shift_block0 V c t) p q

omit V in
/-- An index of the output array is in point `t`'s block iff each coordinate is in the block's range on its axis. -/
theorem mem_block0 (t : Fin cfg0.N) (i : S50000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v25).slice (win0_7.rect t)).set ↔ _
  rw [View.set_slice_whole, Rect.mem_set_unit]
  exact Iff.rfl

omit V in
/-- The 25 blocks of 2000 rows tile the 50000 rows: row `r` is in the block of the point whose block index is `r / 2000`. -/
theorem cover0 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := idx_onto0 ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [mem_block0]
  intro a
  match a with
  | ⟨0, _⟩ =>
    show win0_7.index t (0 : Fin 2) * 2000 ≤ (i 0).val ∧ (i 0).val < win0_7.index t (0 : Fin 2) * 2000 + 2000
    omega
  | ⟨1, _⟩ =>
    show win0_7.index t (1 : Fin 2) * 128 ≤ (i 1).val ∧ (i 1).val < win0_7.index t (1 : Fin 2) * 128 + 128
    omega

/-- After region 0 the output array holds the layer of the region's input arrays. -/
theorem final0 (c : Dev nD) :
    (dat0 (F := Ideal) V c).arrAt 7 cfg0.N
      = layerK (V c main_arg0) (V c main_v21) (V c main_arg2) (V c main_arg3) (V c main_v22) (V c main_v23) (V c main_v24) :=
  (dat0 (F := Ideal) V c).arrAt_eq_of_cover 7
    (layerK (V c main_arg0) (V c main_v21) (V c main_arg2) (V c main_arg3) (V c main_v22) (V c main_v23) (V c main_v24))
    (fun t _ => flushed0_eq V c t) cover0

/-! # Region 1: the same stage over its own arrays -/

/-! ## Region 1: the printed index maps, decided over the grid -/

/-- At every point: the two row-blocked inputs' block row index is the output's, every other block index of every window is
    zero, and the output's block row index is at most 24. -/
theorem idx_facts1 : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) ≤ 24 ∧ win1_7.index t (1 : Fin 2) = 0 :=
  (by decide +kernel : ∀ t : Fin grid1.N, _)

/-- Every block row index below 25 is some point's. -/
theorem idx_onto1 : ∀ q : Fin 25, ∃ t : Fin cfg1.N, win1_7.index t = ![q.val, 0] :=
  (by decide +kernel : ∀ q : Fin 25, ∃ t : Fin grid1.N, win1_7.index t = ![q.val, 0])

/-- The output's block row index at a point is at most 24. -/
theorem idx7_le1 (t : Fin cfg1.N) : win1_7.index t (0 : Fin 2) ≤ 24 := (idx_facts1 t).2.2.2.2.2.2.2.2.2.2.2.2.2.2.1

/-! ## Region 1: each input block read where the output block's rows sit -/

/-- Point `t`'s block of the node features holds rows `2000·(block index) + p` of the array. -/
theorem feat_block1 (c : Dev nD) (t : Fin cfg1.N) (p : Fin 2000) (k : Fin 128) :
    iblk1 (F := Ideal) V c 0 t (ix2 p k) = V c main_v25 (ix2 (blockRow (win1_7.index t (0 : Fin 2)) (idx7_le1 t) p) k) := by
  obtain ⟨e00, e01, -⟩ := idx_facts1 t
  show V c main_v25 (((cfg1.win 0).blk t).view.emb (ix2 p k)) = V c main_v25 _
  refine congrArg _ ?_
  funext a; apply Fin.ext
  match a with
  | ⟨0, _⟩ => show win1_0.index t (0 : Fin 2) * 2000 + 1 * p.val = win1_7.index t (0 : Fin 2) * 2000 + p.val; omega
  | ⟨1, _⟩ => show win1_0.index t (1 : Fin 2) * 128 + 1 * k.val = k.val; omega

/-- Point `t`'s block of the neighbours' mean holds the same rows of its array. -/
theorem mean_block1 (c : Dev nD) (t : Fin cfg1.N) (p : Fin 2000) (k : Fin 128) :
    iblk1 (F := Ideal) V c 1 t (ix2 p k) = V c main_v43 (ix2 (blockRow (win1_7.index t (0 : Fin 2)) (idx7_le1 t) p) k) := by
  obtain ⟨-, -, e10, e11, -⟩ := idx_facts1 t
  show V c main_v43 (((cfg1.win 1).blk t).view.emb (ix2 p k)) = V c main_v43 _
  refine congrArg _ ?_
  funext a; apply Fin.ext
  match a with
  | ⟨0, _⟩ => show win1_1.index t (0 : Fin 2) * 2000 + 1 * p.val = win1_7.index t (0 : Fin 2) * 2000 + p.val; omega
  | ⟨1, _⟩ => show win1_1.index t (1 : Fin 2) * 128 + 1 * k.val = k.val; omega

/-- Every point's block of the first weight matrix is the whole matrix. -/
theorem wl_block1 (c : Dev nD) (t : Fin cfg1.N) (k j : Fin 128) :
    iblk1 (F := Ideal) V c 2 t (ix2 k j) = V c main_arg7 (ix2 k j) := by
  obtain ⟨-, -, -, -, e20, e21, -⟩ := idx_facts1 t
  show V c main_arg7 (((cfg1.win 2).blk t).view.emb (ix2 k j)) = V c main_arg7 _
  refine congrArg _ ?_
  funext a; apply Fin.ext
  match a with
  | ⟨0, _⟩ => show win1_2.index t (0 : Fin 2) * 128 + 1 * k.val = k.val; omega
  | ⟨1, _⟩ => show win1_2.index t (1 : Fin 2) * 128 + 1 * j.val = j.val; omega

/-- Every point's block of the second weight matrix is the whole matrix. -/
theorem wr_block1 (c : Dev nD) (t : Fin cfg1.N) (k j : Fin 128) :
    iblk1 (F := Ideal) V c 3 t (ix2 k j) = V c main_arg8 (ix2 k j) := by
  obtain ⟨-, -, -, -, -, -, e30, e31, -⟩ := idx_facts1 t
  show V c main_arg8 (((cfg1.win 3).blk t).view.emb (ix2 k j)) = V c main_arg8 _
  refine congrArg _ ?_
  funext a; apply Fin.ext
  match a with
  | ⟨0, _⟩ => show win1_3.index t (0 : Fin 2) * 128 + 1 * k.val = k.val; omega
  | ⟨1, _⟩ => show win1_3.index t (1 : Fin 2) * 128 + 1 * j.val = j.val; omega

/-- Every point's block of the bias row is the whole row. -/
theorem bias_block1 (c : Dev nD) (t : Fin cfg1.N) (z : Fin 1) (j : Fin 128) :
    iblk1 (F := Ideal) V c 4 t (ix2 z j) = V c main_v44 (ix2 z j) := by
  obtain ⟨-, -, -, -, -, -, -, -, e40, e41, -⟩ := idx_facts1 t
  show V c main_v44 (((cfg1.win 4).blk t).view.emb (ix2 z j)) = V c main_v44 _
  refine congrArg _ ?_
  funext a; apply Fin.ext
  match a with
  | ⟨0, _⟩ => show win1_4.index t (0 : Fin 2) * 1 + 1 * z.val = z.val; omega
  | ⟨1, _⟩ => show win1_4.index t (1 : Fin 2) * 128 + 1 * j.val = j.val; omega

/-- Every point's block of the scale row is the whole row. -/
theorem scale_block1 (c : Dev nD) (t : Fin cfg1.N) (z : Fin 1) (j : Fin 128) :
    iblk1 (F := Ideal) V c 5 t (ix2 z j) = V c main_v45 (ix2 z j) := by
  obtain ⟨-, -, -, -, -, -, -, -, -, -, e50, e51, -⟩ := idx_facts1 t
  show V c main_v45 (((cfg1.win 5).blk t).view.emb (ix2 z j)) = V c main_v45 _
  refine congrArg _ ?_
  funext a; apply Fin.ext
  match a with
  | ⟨0, _⟩ => show win1_5.index t (0 : Fin 2) * 1 + 1 * z.val = z.val; omega
  | ⟨1, _⟩ => show win1_5.index t (1 : Fin 2) * 128 + 1 * j.val = j.val; omega

/-- Every point's block of the shift row is the whole row. -/
theorem shift_block1 (c : Dev nD) (t : Fin cfg1.N) (z : Fin 1) (j : Fin 128) :
    iblk1 (F := Ideal) V c 6 t (ix2 z j) = V c main_v46 (ix2 z j) := by
  obtain ⟨-, -, -, -, -, -, -, -, -, -, -, -, e60, e61, -⟩ := idx_facts1 t
  show V c main_v46 (((cfg1.win 6).blk t).view.emb (ix2 z j)) = V c main_v46 _
  refine congrArg _ ?_
  funext a; apply Fin.ext
  match a with
  | ⟨0, _⟩ => show win1_6.index t (0 : Fin 2) * 1 + 1 * z.val = z.val; omega
  | ⟨1, _⟩ => show win1_6.index t (1 : Fin 2) * 128 + 1 * j.val = j.val; omega
/-! ## Region 1: what a point writes back, the blocks' cover, the array -/

omit V in
/-- A block whose element `(p, q)` is the whole-array function `G` at row `2000·(block index) + p`, column `q`, is point
    `t`'s block of `G` as the output window reads it. -/
theorem out_block1 (X : FVec Ideal S2000x128 .f32) (G : S50000x128.Idx → EReal) (t : Fin cfg1.N)
    (h : ∀ (p : Fin 2000) (q : Fin 128), X (ix2 p q) = G (ix2 (blockRow (win1_7.index t (0 : Fin 2)) (idx7_le1 t) p) q)) :
    (cfg1.win 7).cut (grid1.coords t) X = ((cfg1.win 7).blk t).view.read (Elt Ideal) G := by
  have e71 : win1_7.index t (1 : Fin 2) = 0 := (idx_facts1 t).2.2.2.2.2.2.2.2.2.2.2.2.2.2.2
  funext j
  obtain ⟨p, q, rfl⟩ : ∃ (p : Fin 2000) (q : Fin 128), j = ix2 p q := ⟨j 0, j 1, eq_ix2 j⟩
  show X (ix2 p q) = G (((cfg1.win 7).blk t).view.emb (ix2 p q))
  rw [h]
  refine congrArg _ ?_
  funext a; apply Fin.ext
  match a with
  | ⟨0, _⟩ => show win1_7.index t (0 : Fin 2) * 2000 + p.val = win1_7.index t (0 : Fin 2) * 2000 + 1 * p.val; omega
  | ⟨1, _⟩ => show q.val = win1_7.index t (1 : Fin 2) * 128 + 1 * q.val; omega

/-- What point `t` writes back is block `t` of the layer of the region's input arrays. -/
theorem flushed1_eq (c : Dev nD) (t : Fin cfg1.N) :
    (dat1 (F := Ideal) V c).flushed 7 t = ((cfg1.win 7).blk t).view.read (Elt Ideal)
      (layerK (V c main_v25) (V c main_v43) (V c main_arg7) (V c main_arg8) (V c main_v44) (V c main_v45) (V c main_v46)) := by
  show (cfg1.win 7).cut (grid1.coords t) ((dat1 (F := Ideal) V c).after 7 t) = _
  rw [after1_7]
  unfold out1_7
  rw [View.canon_unit_zero zero_offsets]
  simp only [View.ld_unit_zero (S := S2000x128) zero_offsets, View.ld_unit_zero (S := S128x128) zero_offsets,
    View.ld_unit_zero (S := S1x128) zero_offsets]
  refine out_block1 _ _ t fun p q => ?_
  refine (PayValue.pay1_apply _ _ _ _ _ _ _ p q).trans ?_
  exact row_block (iblk1 (F := Ideal) V c 0 t) (iblk1 (F := Ideal) V c 1 t) (iblk1 (F := Ideal) V c 2 t) (iblk1 (F := Ideal) V c 3 t)
    (iblk1 (F := Ideal) V c 4 t) (iblk1 (F := Ideal) V c 5 t) (iblk1 (F := Ideal) V c 6 t)
    (V c main_v25) (V c main_v43) (V c main_arg7) (V c main_arg8) (V c main_v44) (V c main_v45) (V c main_v46)
    (win1_7.index t (0 : Fin 2)) (idx7_le1 t)
    (feat_block1 V c t) (mean_block1 V c t) (wl_block1 V c t) (wr_block1 V c t) (bias_block1 V c t) (scale_block1 V c t) (shift_block1 V c t) p q

omit V in
/-- An index of the output array is in point `t`'s block iff each coordinate is in the block's range on its axis. -/
theorem mem_block1 (t : Fin cfg1.N) (i : S50000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v47).slice (win1_7.rect t)).set ↔ _
  rw [View.set_slice_whole, Rect.mem_set_unit]
  exact Iff.rfl

omit V in
/-- The 25 blocks of 2000 rows tile the 50000 rows: row `r` is in the block of the point whose block index is `r / 2000`. -/
theorem cover1 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  obtain ⟨t, ht⟩ := idx_onto1 ⟨(i 0).val / 2000, by omega⟩
  have q0 : win1_7.index t (0 : Fin 2) = (i 0).val / 2000 := congrFun ht 0
  have q1 : win1_7.index t (1 : Fin 2) = 0 := congrFun ht 1
  refine ⟨t, flush1_7 t, ?_⟩
  rw [mem_block1]
  intro a
  match a with
  | ⟨0, _⟩ =>
    show win1_7.index t (0 : Fin 2) * 2000 ≤ (i 0).val ∧ (i 0).val < win1_7.index t (0 : Fin 2) * 2000 + 2000
    omega
  | ⟨1, _⟩ =>
    show win1_7.index t (1 : Fin 2) * 128 ≤ (i 1).val ∧ (i 1).val < win1_7.index t (1 : Fin 2) * 128 + 128
    omega

/-- After region 1 the output array holds the layer of the region's input arrays. -/
theorem final1 (c : Dev nD) :
    (dat1 (F := Ideal) V c).arrAt 7 cfg1.N
      = layerK (V c main_v25) (V c main_v43) (V c main_arg7) (V c main_arg8) (V c main_v44) (V c main_v45) (V c main_v46) :=
  (dat1 (F := Ideal) V c).arrAt_eq_of_cover 7
    (layerK (V c main_v25) (V c main_v43) (V c main_arg7) (V c main_arg8) (V c main_v44) (V c main_v45) (V c main_v46))
    (fun t _ => flushed1_eq V c t) cover1

end Cert.KernelIdeal.RegionValue
end
-- ==== Proof.KerValue.lean ====
/-
  What the idealized kernel's program leaves in its result array, as a function of the arrays it was launched with.

  The first region's output array is the dense stage of the features and of their neighbours' mean under the first
  layer's parameters (`hidden`); the host then takes the neighbours' mean of that array, and the second region's output,
  which is the program's result, is the dense stage of `hidden` and that mean under the second layer's parameters
  (`output`). Each step reads one boundary of the run: a region's output array is what its write-backs leave, every other
  buffer at a region's exit is what it was at the entry, and a host stretch changes only the buffers its operations write.
-/
import proofs.«143549_j6743098655467_1_alg».proof.Proof.Gen.KernelIdeal.Frame
import proofs.«143549_j6743098655467_1_alg».proof.Proof.KerHost
import proofs.«143549_j6743098655467_1_alg».proof.Proof.KerRegion

set_option maxRecDepth 16384

noncomputable section

namespace Cert.KernelIdeal.NetValue

open Cert.KernelIdeal Cert.KernelIdeal.Gen Cert.KernelIdeal.HostValue Cert.KernelIdeal.RegionValue
open Idealize.ShloMosaic Idealize.ShloMosaic.TcCoe Idealize.ShloMosaic.StableHlo Idealize.SL.Sem

variable (m : (ℓ : Loc nD τ sig) → Buf (Elt Ideal) ℓ) (ρ : Dev nD → PrngReg)

/-- The first layer's output, from the launch memory. -/
def hidden (c : Dev nD) : S50000x128.Idx → EReal :=
  layerK (m ((c : Thread nD τ).loc main_arg0))
    (aggMean (m ((c : Thread nD τ).loc main_arg0)) (srcIds (m ((c : Thread nD τ).loc main_arg1))) (dstIds (m ((c : Thread nD τ).loc main_arg1))))
    (m ((c : Thread nD τ).loc main_arg2)) (m ((c : Thread nD τ).loc main_arg3))
    (asRow (m ((c : Thread nD τ).loc main_arg4))) (asRow (m ((c : Thread nD τ).loc main_arg5))) (asRow (m ((c : Thread nD τ).loc main_arg6)))

/-- The second layer's output, the program's result. -/
def output (c : Dev nD) : S50000x128.Idx → EReal :=
  layerK (hidden m c)
    (aggMean (hidden m c) (srcIds (m ((c : Thread nD τ).loc main_arg1))) (dstIds (m ((c : Thread nD τ).loc main_arg1))))
    (m ((c : Thread nD τ).loc main_arg7)) (m ((c : Thread nD τ).loc main_arg8))
    (asRow (m ((c : Thread nD τ).loc main_arg9))) (asRow (m ((c : Thread nD τ).loc main_arg10))) (asRow (m ((c : Thread nD τ).loc main_arg11)))

/-! ## The first region's exit -/

theorem exit0_hidden (c : Dev nD) : W2 m ρ c (Proc.devRef .tc main_v25) = hidden m c := by
  refine (W2_arr m ρ c 7).trans ?_
  refine (final0 (V1 m ρ) c).trans ?_
  have e0 : V1 m ρ c main_arg0 = m ((c : Thread nD τ).loc main_arg0) := entry0_x m ρ c
  have e1 : V1 m ρ c main_v21 = aggMean (m ((c : Thread nD τ).loc main_arg0)) (srcIds (m ((c : Thread nD τ).loc main_arg1))) (dstIds (m ((c : Thread nD τ).loc main_arg1))) := entry0_mean m ρ c
  have e2 : V1 m ρ c main_arg2 = m ((c : Thread nD τ).loc main_arg2) := entry0_Wl m ρ c
  have e3 : V1 m ρ c main_arg3 = m ((c : Thread nD τ).loc main_arg3) := entry0_Wr m ρ c
  have e4 : V1 m ρ c main_v22 = asRow (m ((c : Thread nD τ).loc main_arg4)) := entry0_b m ρ c
  have e5 : V1 m ρ c main_v23 = asRow (m ((c : Thread nD τ).loc main_arg5)) := entry0_g m ρ c
  have e6 : V1 m ρ c main_v24 = asRow (m ((c : Thread nD τ).loc main_arg6)) := entry0_be m ρ c
  rw [e0, e1, e2, e3, e4, e5, e6]
  rfl

theorem exit0_src (c : Dev nD) : W2 m ρ c (Proc.devRef .tc main_v1) = srcIds (m ((c : Thread nD τ).loc main_arg1)) :=
  (W2_of_ne m ρ c main_v1 (by decide)).trans (entry0_src m ρ c)

theorem exit0_dst (c : Dev nD) : W2 m ρ c (Proc.devRef .tc main_v3) = dstIds (m ((c : Thread nD τ).loc main_arg1)) :=
  (W2_of_ne m ρ c main_v3 (by decide)).trans (entry0_dst m ρ c)

theorem exit0_arg7 (c : Dev nD) : W2 m ρ c (Proc.devRef .tc main_arg7) = m ((c : Thread nD τ).loc main_arg7) :=
  exit0_arg m ρ c main_arg7 (by decide) (by
    show StableHlo.after hostOps0 (W0 m ρ c) (Proc.devRef .tc main_arg7) = _
    after_results_simp)

theorem exit0_arg8 (c : Dev nD) : W2 m ρ c (Proc.devRef .tc main_arg8) = m ((c : Thread nD τ).loc main_arg8) :=
  exit0_arg m ρ c main_arg8 (by decide) (by
    show StableHlo.after hostOps0 (W0 m ρ c) (Proc.devRef .tc main_arg8) = _
    after_results_simp)

theorem exit0_arg9 (c : Dev nD) : W2 m ρ c (Proc.devRef .tc main_arg9) = m ((c : Thread nD τ).loc main_arg9) :=
  exit0_arg m ρ c main_arg9 (by decide) (by
    show StableHlo.after hostOps0 (W0 m ρ c) (Proc.devRef .tc main_arg9) = _
    after_results_simp)

theorem exit0_arg10 (c : Dev nD) : W2 m ρ c (Proc.devRef .tc main_arg10) = m ((c : Thread nD τ).loc main_arg10) :=
  exit0_arg m ρ c main_arg10 (by decide) (by
    show StableHlo.after hostOps0 (W0 m ρ c) (Proc.devRef .tc main_arg10) = _
    after_results_simp)

theorem exit0_arg11 (c : Dev nD) : W2 m ρ c (Proc.devRef .tc main_arg11) = m ((c : Thread nD τ).loc main_arg11) :=
  exit0_arg m ρ c main_arg11 (by decide) (by
    show StableHlo.after hostOps0 (W0 m ρ c) (Proc.devRef .tc main_arg11) = _
    after_results_simp)

/-! ## The second region's exit: the result -/

/-- The result buffer at the last boundary holds the second layer's output of the launch memory. -/
theorem result_eq (c : Dev nD) : W4 m ρ c (Proc.devRef .tc main_v47) = output m c := by
  refine (W4_arr m ρ c 7).trans ?_
  refine (final1 (V3 m ρ) c).trans ?_
  have e0 : V3 m ρ c main_v25 = hidden m c := (entry1_h m ρ c).trans (exit0_hidden m ρ c)
  have e1 : V3 m ρ c main_v43
      = aggMean (hidden m c) (srcIds (m ((c : Thread nD τ).loc main_arg1))) (dstIds (m ((c : Thread nD τ).loc main_arg1))) := by
    refine (entry1_mean m ρ c).trans ?_
    rw [exit0_hidden, exit0_src, exit0_dst]
  have e2 : V3 m ρ c main_arg7 = m ((c : Thread nD τ).loc main_arg7) := (entry1_Wl m ρ c).trans (exit0_arg7 m ρ c)
  have e3 : V3 m ρ c main_arg8 = m ((c : Thread nD τ).loc main_arg8) := (entry1_Wr m ρ c).trans (exit0_arg8 m ρ c)
  have e4 : V3 m ρ c main_v44 = asRow (m ((c : Thread nD τ).loc main_arg9)) := by
    refine (entry1_b m ρ c).trans ?_
    rw [exit0_arg9]
  have e5 : V3 m ρ c main_v45 = asRow (m ((c : Thread nD τ).loc main_arg10)) := by
    refine (entry1_g m ρ c).trans ?_
    rw [exit0_arg10]
  have e6 : V3 m ρ c main_v46 = asRow (m ((c : Thread nD τ).loc main_arg11)) := by
    refine (entry1_be m ρ c).trans ?_
    rw [exit0_arg11]
  rw [e0, e1, e2, e3, e4, e5, e6]
  rfl

end Cert.KernelIdeal.NetValue

end
-- ==== Proof.RefLayer.lean ====
/-
  The reference is the specification, layer by layer.

  The reference computes a layer's dense stage on whole [50000, 128] arrays: the affine part (two contractions over the
  128 columns, their sum, the bias spread along the rows), the row mean (a sum along each row started from the zero word,
  made a column, divided by the literal 128), the centred row, its square as a product with itself, the row variance the
  same way, the reciprocal square root of variance plus the literal epsilon, the product with the centred row and with g,
  the shift by be, and the maximum with zero. Read at row p and column q, each stage depends on row p alone, and the whole is
  Cert.Sage.row of row p of the neighbours' mean and of the features. The sum's initial word is 0, so it drops out; every
  other float literal is the same word as in the specification and is never evaluated. The neighbours' mean (a gather and
  scatter chain) stays an opaque array throughout. Layer 2 is the same stage with layer 1's result as its features.
-/
import proofs.«143549_j6743098655467_1_alg».proof.Proof.Gen.ReferenceIdeal.Read
import proofs.«143549_j6743098655467_1_alg».proof.Proof.SageRow
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-! ## The index maps of the layout operations, at an index given by coordinates

  A contraction over the second axis of the left operand and the first of the right reads (p, k) and (k, q); a row
  reduction reads (p, k); a vector spread along the rows is read at the column, a column spread along the columns at the
  row. -/

section Index

variable (p : Fin 50000) (q k : Fin 128) (u : Fin 1)

theorem lidx22 : lidx_main_v22 (ix2 p q) k = ix2 p k :=
  funext fun a => Fin.ext (by match a with | ⟨0, _⟩ => rfl | ⟨1, _⟩ => rfl)
theorem ridx22 : ridx_main_v22 (ix2 p q) k = ix2 k q :=
  funext fun a => Fin.ext (by match a with | ⟨0, _⟩ => rfl | ⟨1, _⟩ => rfl)
theorem lidx23 : lidx_main_v23 (ix2 p q) k = ix2 p k :=
  funext fun a => Fin.ext (by match a with | ⟨0, _⟩ => rfl | ⟨1, _⟩ => rfl)
theorem ridx23 : ridx_main_v23 (ix2 p q) k = ix2 k q :=
  funext fun a => Fin.ext (by match a with | ⟨0, _⟩ => rfl | ⟨1, _⟩ => rfl)
theorem idx26 : idx_main_v26 (ix2 p q) = ix2 (0 : Fin 1) q :=
  funext fun a => Fin.ext (by match a with | ⟨0, _⟩ => rfl | ⟨1, _⟩ => rfl)
theorem idx25 : idx_main_v25 (ix2 u q) = ix1 q :=
  funext fun a => Fin.ext (by match a with | ⟨0, _⟩ => rfl)
theorem idx28 : idx_main_v28 (ix1 p) k = ix2 p k :=
  funext fun a => Fin.ext (by match a with | ⟨0, _⟩ => rfl | ⟨1, _⟩ => rfl)
theorem idx29 : idx_main_v29 (ix2 p u) = ix1 p :=
  funext fun a => Fin.ext (by match a with | ⟨0, _⟩ => rfl)
theorem idx32 : idx_main_v32 (ix2 p q) = ix2 p (0 : Fin 1) :=
  funext fun a => Fin.ext (by match a with | ⟨0, _⟩ => rfl | ⟨1, _⟩ => rfl)
theorem idx35 : idx_main_v35 (ix1 p) k = ix2 p k :=
  funext fun a => Fin.ext (by match a with | ⟨0, _⟩ => rfl | ⟨1, _⟩ => rfl)
theorem idx36 : idx_main_v36 (ix2 p u) = ix1 p :=
  funext fun a => Fin.ext (by match a with | ⟨0, _⟩ => rfl)
theorem idx39 : idx_main_v39 (ix2 p q) = ix2 p (0 : Fin 1) :=
  funext fun a => Fin.ext (by match a with | ⟨0, _⟩ => rfl | ⟨1, _⟩ => rfl)
theorem idx44 : idx_main_v44 (ix2 p q) = ix2 p (0 : Fin 1) :=
  funext fun a => Fin.ext (by match a with | ⟨0, _⟩ => rfl | ⟨1, _⟩ => rfl)
theorem idx47 : idx_main_v47 (ix2 p q) = ix2 (0 : Fin 1) q :=
  funext fun a => Fin.ext (by match a with | ⟨0, _⟩ => rfl | ⟨1, _⟩ => rfl)
theorem idx46 : idx_main_v46 (ix2 u q) = ix1 q :=
  funext fun a => Fin.ext (by match a with | ⟨0, _⟩ => rfl)
theorem idx50 : idx_main_v50 (ix2 p q) = ix2 (0 : Fin 1) q :=
  funext fun a => Fin.ext (by match a with | ⟨0, _⟩ => rfl | ⟨1, _⟩ => rfl)
theorem idx49 : idx_main_v49 (ix2 u q) = ix1 q :=
  funext fun a => Fin.ext (by match a with | ⟨0, _⟩ => rfl)

end Index

section Index2

variable (p : Fin 50000) (q k : Fin 128) (u : Fin 1)

theorem lidx71 : lidx_main_v71 (ix2 p q) k = ix2 p k :=
  funext fun a => Fin.ext (by match a with | ⟨0, _⟩ => rfl | ⟨1, _⟩ => rfl)
theorem ridx71 : ridx_main_v71 (ix2 p q) k = ix2 k q :=
  funext fun a => Fin.ext (by match a with | ⟨0, _⟩ => rfl | ⟨1, _⟩ => rfl)
theorem lidx72 : lidx_main_v72 (ix2 p q) k = ix2 p k :=
  funext fun a => Fin.ext (by match a with | ⟨0, _⟩ => rfl | ⟨1, _⟩ => rfl)
theorem ridx72 : ridx_main_v72 (ix2 p q) k = ix2 k q :=
  funext fun a => Fin.ext (by match a with | ⟨0, _⟩ => rfl | ⟨1, _⟩ => rfl)
theorem idx75 : idx_main_v75 (ix2 p q) = ix2 (0 : Fin 1) q :=
  funext fun a => Fin.ext (by match a with | ⟨0, _⟩ => rfl | ⟨1, _⟩ => rfl)
theorem idx74 : idx_main_v74 (ix2 u q) = ix1 q :=
  funext fun a => Fin.ext (by match a with | ⟨0, _⟩ => rfl)
theorem idx77 : idx_main_v77 (ix1 p) k = ix2 p k :=
  funext fun a => Fin.ext (by match a with | ⟨0, _⟩ => rfl | ⟨1, _⟩ => rfl)
theorem idx78 : idx_main_v78 (ix2 p u) = ix1 p :=
  funext fun a => Fin.ext (by match a with | ⟨0, _⟩ => rfl)
theorem idx81 : idx_main_v81 (ix2 p q) = ix2 p (0 : Fin 1) :=
  funext fun a => Fin.ext (by match a with | ⟨0, _⟩ => rfl | ⟨1, _⟩ => rfl)
theorem idx84 : idx_main_v84 (ix1 p) k = ix2 p k :=
  funext fun a => Fin.ext (by match a with | ⟨0, _⟩ => rfl | ⟨1, _⟩ => rfl)
theorem idx85 : idx_main_v85 (ix2 p u) = ix1 p :=
  funext fun a => Fin.ext (by match a with | ⟨0, _⟩ => rfl)
theorem idx88 : idx_main_v88 (ix2 p q) = ix2 p (0 : Fin 1) :=
  funext fun a => Fin.ext (by match a with | ⟨0, _⟩ => rfl | ⟨1, _⟩ => rfl)
theorem idx93 : idx_main_v93 (ix2 p q) = ix2 p (0 : Fin 1) :=
  funext fun a => Fin.ext (by match a with | ⟨0, _⟩ => rfl | ⟨1, _⟩ => rfl)
theorem idx96 : idx_main_v96 (ix2 p q) = ix2 (0 : Fin 1) q :=
  funext fun a => Fin.ext (by match a with | ⟨0, _⟩ => rfl | ⟨1, _⟩ => rfl)
theorem idx95 : idx_main_v95 (ix2 u q) = ix1 q :=
  funext fun a => Fin.ext (by match a with | ⟨0, _⟩ => rfl)
theorem idx99 : idx_main_v99 (ix2 p q) = ix2 (0 : Fin 1) q :=
  funext fun a => Fin.ext (by match a with | ⟨0, _⟩ => rfl | ⟨1, _⟩ => rfl)
theorem idx98 : idx_main_v98 (ix2 u q) = ix1 q :=
  funext fun a => Fin.ext (by match a with | ⟨0, _⟩ => rfl)

end Index2

/-! ## Layer 1 -/

section Layer1

variable (x0 : (⟨S50000x128, .f32⟩ : BufTy).Contents (Elt Ideal)) (x1 : (⟨S2x800000, .i32⟩ : BufTy).Contents (Elt Ideal))
  (x2 x3 : (⟨S128x128, .f32⟩ : BufTy).Contents (Elt Ideal)) (x4 x5 x6 : (⟨S128, .f32⟩ : BufTy).Contents (Elt Ideal))

/-- The affine part: the mean's row through the first weight, the node's own row through the second, plus the bias. -/
theorem lin1_apply (p : Fin 50000) (j : Fin 128) :
    val_main_v27 (F := Ideal) x0 x1 x2 x3 x4 (ix2 p j)
      = Cert.Sage.lin (fun k => val_main_v21 (F := Ideal) x0 x1 (ix2 p k)) (fun k => x0 (ix2 p k))
          (fun k j => x2 (ix2 k j)) (fun k j => x3 (ix2 k j)) (fun j => x4 (ix1 j)) j := by
  rw [val_main_v27_apply, val_main_v24_apply, val_main_v22_apply, val_main_v23_apply, val_main_v26_apply,
    val_main_v25_apply]
  simp only [lidx22, ridx22, lidx23, ridx23, idx26, idx25, Ideal.addf_def]
  rfl

/-- The column of row means: the row's sum (the reduction starts from the zero word, which is 0) over the literal 128. -/
theorem mean1_apply (p : Fin 50000) (u : Fin 1) :
    val_main_v31 (F := Ideal) x0 x1 x2 x3 x4 (ix2 p u)
      = Cert.Sage.rowMean (fun j => val_main_v27 (F := Ideal) x0 x1 x2 x3 x4 (ix2 p j)) := by
  rw [val_main_v31_apply, val_main_v29_apply, val_main_v28_apply, val_main_v30_apply, val_main_cst_4_apply,
    val_main_cst_5_apply]
  simp only [idx29, idx28, Ideal.hostDivf_def, Ideal.ofBits_def, Ideal.ofBits_zero_f32, zero_add]
  rfl

/-- The centred row, as the variance uses it. -/
theorem centred1_apply (p : Fin 50000) (j : Fin 128) :
    val_main_v33 (F := Ideal) x0 x1 x2 x3 x4 (ix2 p j)
      = (val_main_v27 (F := Ideal) x0 x1 x2 x3 x4 (ix2 p j) : EReal)
        - Cert.Sage.rowMean (fun j => val_main_v27 (F := Ideal) x0 x1 x2 x3 x4 (ix2 p j)) := by
  rw [val_main_v33_apply, val_main_v32_apply, idx32, mean1_apply, Ideal.subf_def]

/-- The centred row again, as the result uses it: the same column of means spread a second time. -/
theorem centred1_apply' (p : Fin 50000) (j : Fin 128) :
    val_main_v40 (F := Ideal) x0 x1 x2 x3 x4 (ix2 p j)
      = (val_main_v27 (F := Ideal) x0 x1 x2 x3 x4 (ix2 p j) : EReal)
        - Cert.Sage.rowMean (fun j => val_main_v27 (F := Ideal) x0 x1 x2 x3 x4 (ix2 p j)) := by
  rw [val_main_v40_apply, val_main_v39_apply, idx39, mean1_apply, Ideal.subf_def]

/-- The column of row variances: the sum of the squared deviations (a product of the centred row with itself) over 128. -/
theorem var1_apply (p : Fin 50000) (u : Fin 1) :
    val_main_v38 (F := Ideal) x0 x1 x2 x3 x4 (ix2 p u)
      = Cert.Sage.rowVar (fun j => val_main_v27 (F := Ideal) x0 x1 x2 x3 x4 (ix2 p j)) := by
  have hsq : ∀ k : Fin 128, val_main_v34 (F := Ideal) x0 x1 x2 x3 x4 (ix2 p k)
      = ((val_main_v27 (F := Ideal) x0 x1 x2 x3 x4 (ix2 p k) : EReal)
          - Cert.Sage.rowMean (fun j => val_main_v27 (F := Ideal) x0 x1 x2 x3 x4 (ix2 p j)))
        * ((val_main_v27 (F := Ideal) x0 x1 x2 x3 x4 (ix2 p k) : EReal)
          - Cert.Sage.rowMean (fun j => val_main_v27 (F := Ideal) x0 x1 x2 x3 x4 (ix2 p j))) := fun k => by
    rw [val_main_v34_apply, centred1_apply, Ideal.mulf_def]
  rw [val_main_v38_apply, val_main_v36_apply, val_main_v35_apply, val_main_v37_apply, val_main_cst_6_apply,
    val_main_cst_7_apply]
  simp only [idx36, idx35, Ideal.hostDivf_def, Ideal.ofBits_def, Ideal.ofBits_zero_f32, zero_add]
  unfold Cert.Sage.rowVar
  exact congrArg (fun s => Ideal.div s (Ideal.ofBits .f32 0x43000000#32)) (Finset.sum_congr rfl fun k _ => hsq k)

/-- The scale of a row, spread along it: the reciprocal square root of the variance plus the literal epsilon. -/
theorem scale1_apply (p : Fin 50000) (j : Fin 128) :
    val_main_v44 (F := Ideal) x0 x1 x2 x3 x4 (ix2 p j)
      = Ideal.rsqrt (Cert.Sage.rowVar (fun j => val_main_v27 (F := Ideal) x0 x1 x2 x3 x4 (ix2 p j))
          + Ideal.ofBits .f32 0x3727C5AC#32) := by
  rw [val_main_v44_apply, idx44, val_main_v43_apply, val_main_v42_apply, var1_apply, val_main_v41_apply,
    val_main_cst_8_apply, Ideal.hostUnary_rsqrt_def, Ideal.addf_def, Ideal.ofBits_def]

/-- Layer 1 of the reference at row p, column q. -/
theorem layer1_apply (p : Fin 50000) (q : Fin 128) :
    val_main_v52 (F := Ideal) x0 x1 x2 x3 x4 x5 x6 (ix2 p q)
      = Cert.Sage.row (fun k => val_main_v21 (F := Ideal) x0 x1 (ix2 p k)) (fun k => x0 (ix2 p k))
          (fun k j => x2 (ix2 k j)) (fun k j => x3 (ix2 k j)) (fun j => x4 (ix1 j)) (fun j => x5 (ix1 j)) (fun j => x6 (ix1 j)) q := by
  have hrow : (fun j => val_main_v27 (F := Ideal) x0 x1 x2 x3 x4 (ix2 p j))
      = Cert.Sage.lin (fun k => val_main_v21 (F := Ideal) x0 x1 (ix2 p k)) (fun k => x0 (ix2 p k))
          (fun k j => x2 (ix2 k j)) (fun k j => x3 (ix2 k j)) (fun j => x4 (ix1 j)) :=
    funext fun j => lin1_apply x0 x1 x2 x3 x4 p j
  rw [val_main_v52_apply, val_main_v51_apply, val_main_v48_apply, val_main_v45_apply, centred1_apply', scale1_apply,
    val_main_v47_apply, idx47, val_main_v46_apply, idx46, val_main_v50_apply, idx50, val_main_v49_apply, idx49,
    val_main_call0_v0_apply, val_main_call0_cst_apply, hrow, lin1_apply, Ideal.maximumf_def, Ideal.addf_def,
    Ideal.mulf_def, Ideal.mulf_def, Ideal.ofBits_def]
  unfold Cert.Sage.row Cert.Sage.normed
  with_reducible rfl

end Layer1

/-! ## Layer 2: the same stage over layer 1's result -/

section Layer2

variable (x0 : (⟨S50000x128, .f32⟩ : BufTy).Contents (Elt Ideal)) (x1 : (⟨S2x800000, .i32⟩ : BufTy).Contents (Elt Ideal))
  (x2 x3 : (⟨S128x128, .f32⟩ : BufTy).Contents (Elt Ideal)) (x4 x5 x6 : (⟨S128, .f32⟩ : BufTy).Contents (Elt Ideal))
  (x7 x8 : (⟨S128x128, .f32⟩ : BufTy).Contents (Elt Ideal)) (x9 x10 x11 : (⟨S128, .f32⟩ : BufTy).Contents (Elt Ideal))

/-- The affine part: the mean's row through the first weight, layer 1's row through the second, plus the bias. -/
theorem lin2_apply (p : Fin 50000) (j : Fin 128) :
    val_main_v76 (F := Ideal) x0 x1 x2 x3 x4 x5 x6 x7 x8 x9 (ix2 p j)
      = Cert.Sage.lin (fun k => val_main_v70 (F := Ideal) x0 x1 x2 x3 x4 x5 x6 (ix2 p k))
          (fun k => val_main_v52 (F := Ideal) x0 x1 x2 x3 x4 x5 x6 (ix2 p k))
          (fun k j => x7 (ix2 k j)) (fun k j => x8 (ix2 k j)) (fun j => x9 (ix1 j)) j := by
  rw [val_main_v76_apply, val_main_v73_apply, val_main_v71_apply, val_main_v72_apply, val_main_v75_apply,
    val_main_v74_apply]
  simp only [lidx71, ridx71, lidx72, ridx72, idx75, idx74, Ideal.addf_def]
  unfold Cert.Sage.lin
  with_reducible rfl

/-- The column of row means. -/
theorem mean2_apply (p : Fin 50000) (u : Fin 1) :
    val_main_v80 (F := Ideal) x0 x1 x2 x3 x4 x5 x6 x7 x8 x9 (ix2 p u)
      = Cert.Sage.rowMean (fun j => val_main_v76 (F := Ideal) x0 x1 x2 x3 x4 x5 x6 x7 x8 x9 (ix2 p j)) := by
  rw [val_main_v80_apply, val_main_v78_apply, val_main_v77_apply, val_main_v79_apply, val_main_cst_15_apply,
    val_main_cst_16_apply]
  simp only [idx78, idx77, Ideal.hostDivf_def, Ideal.ofBits_def, Ideal.ofBits_zero_f32, zero_add]
  unfold Cert.Sage.rowMean
  with_reducible rfl

/-- The centred row, as the variance uses it. -/
theorem centred2_apply (p : Fin 50000) (j : Fin 128) :
    val_main_v82 (F := Ideal) x0 x1 x2 x3 x4 x5 x6 x7 x8 x9 (ix2 p j)
      = (val_main_v76 (F := Ideal) x0 x1 x2 x3 x4 x5 x6 x7 x8 x9 (ix2 p j) : EReal)
        - Cert.Sage.rowMean (fun j => val_main_v76 (F := Ideal) x0 x1 x2 x3 x4 x5 x6 x7 x8 x9 (ix2 p j)) := by
  rw [val_main_v82_apply, val_main_v81_apply, idx81, mean2_apply, Ideal.subf_def]

/-- The centred row again, as the result uses it. -/
theorem centred2_apply' (p : Fin 50000) (j : Fin 128) :
    val_main_v89 (F := Ideal) x0 x1 x2 x3 x4 x5 x6 x7 x8 x9 (ix2 p j)
      = (val_main_v76 (F := Ideal) x0 x1 x2 x3 x4 x5 x6 x7 x8 x9 (ix2 p j) : EReal)
        - Cert.Sage.rowMean (fun j => val_main_v76 (F := Ideal) x0 x1 x2 x3 x4 x5 x6 x7 x8 x9 (ix2 p j)) := by
  rw [val_main_v89_apply, val_main_v88_apply, idx88, mean2_apply, Ideal.subf_def]

/-- The column of row variances. -/
theorem var2_apply (p : Fin 50000) (u : Fin 1) :
    val_main_v87 (F := Ideal) x0 x1 x2 x3 x4 x5 x6 x7 x8 x9 (ix2 p u)
      = Cert.Sage.rowVar (fun j => val_main_v76 (F := Ideal) x0 x1 x2 x3 x4 x5 x6 x7 x8 x9 (ix2 p j)) := by
  have hsq : ∀ k : Fin 128, val_main_v83 (F := Ideal) x0 x1 x2 x3 x4 x5 x6 x7 x8 x9 (ix2 p k)
      = ((val_main_v76 (F := Ideal) x0 x1 x2 x3 x4 x5 x6 x7 x8 x9 (ix2 p k) : EReal)
          - Cert.Sage.rowMean (fun j => val_main_v76 (F := Ideal) x0 x1 x2 x3 x4 x5 x6 x7 x8 x9 (ix2 p j)))
        * ((val_main_v76 (F := Ideal) x0 x1 x2 x3 x4 x5 x6 x7 x8 x9 (ix2 p k) : EReal)
          - Cert.Sage.rowMean (fun j => val_main_v76 (F := Ideal) x0 x1 x2 x3 x4 x5 x6 x7 x8 x9 (ix2 p j))) := fun k => by
    rw [val_main_v83_apply, centred2_apply, Ideal.mulf_def]
  rw [val_main_v87_apply, val_main_v85_apply, val_main_v84_apply, val_main_v86_apply, val_main_cst_17_apply,
    val_main_cst_18_apply]
  simp only [idx85, idx84, Ideal.hostDivf_def, Ideal.ofBits_def, Ideal.ofBits_zero_f32, zero_add]
  unfold Cert.Sage.rowVar
  exact congrArg (fun s => Ideal.div s (Ideal.ofBits .f32 0x43000000#32)) (Finset.sum_congr rfl fun k _ => hsq k)

/-- The scale of a row, spread along it. -/
theorem scale2_apply (p : Fin 50000) (j : Fin 128) :
    val_main_v93 (F := Ideal) x0 x1 x2 x3 x4 x5 x6 x7 x8 x9 (ix2 p j)
      = Ideal.rsqrt (Cert.Sage.rowVar (fun j => val_main_v76 (F := Ideal) x0 x1 x2 x3 x4 x5 x6 x7 x8 x9 (ix2 p j))
          + Ideal.ofBits .f32 0x3727C5AC#32) := by
  rw [val_main_v93_apply, idx93, val_main_v92_apply, val_main_v91_apply, var2_apply, val_main_v90_apply,
    val_main_cst_19_apply, Ideal.hostUnary_rsqrt_def, Ideal.addf_def, Ideal.ofBits_def]

/-- Layer 2 of the reference at row p, column q: the same stage over layer 1's result. -/
theorem layer2_apply (p : Fin 50000) (q : Fin 128) :
    val_main_v101 (F := Ideal) x0 x1 x2 x3 x4 x5 x6 x7 x8 x9 x10 x11 (ix2 p q)
      = Cert.Sage.row (fun k => val_main_v70 (F := Ideal) x0 x1 x2 x3 x4 x5 x6 (ix2 p k))
          (fun k => val_main_v52 (F := Ideal) x0 x1 x2 x3 x4 x5 x6 (ix2 p k))
          (fun k j => x7 (ix2 k j)) (fun k j => x8 (ix2 k j)) (fun j => x9 (ix1 j)) (fun j => x10 (ix1 j)) (fun j => x11 (ix1 j)) q := by
  have hrow : (fun j => val_main_v76 (F := Ideal) x0 x1 x2 x3 x4 x5 x6 x7 x8 x9 (ix2 p j))
      = Cert.Sage.lin (fun k => val_main_v70 (F := Ideal) x0 x1 x2 x3 x4 x5 x6 (ix2 p k))
          (fun k => val_main_v52 (F := Ideal) x0 x1 x2 x3 x4 x5 x6 (ix2 p k))
          (fun k j => x7 (ix2 k j)) (fun k j => x8 (ix2 k j)) (fun j => x9 (ix1 j)) :=
    funext fun j => lin2_apply x0 x1 x2 x3 x4 x5 x6 x7 x8 x9 p j
  rw [val_main_v101_apply, val_main_v100_apply, val_main_v97_apply, val_main_v94_apply, centred2_apply', scale2_apply,
    val_main_v96_apply, idx96, val_main_v95_apply, idx95, val_main_v99_apply, idx99, val_main_v98_apply, idx98,
    val_main_call1_v0_apply, val_main_call1_cst_apply, hrow, lin2_apply, Ideal.maximumf_def, Ideal.addf_def,
    Ideal.mulf_def, Ideal.mulf_def, Ideal.ofBits_def]
  unfold Cert.Sage.row Cert.Sage.normed
  with_reducible rfl

end Layer2

end Cert.ReferenceIdeal.RefValue
end
-- ==== Proof.Bridge.lean ====
/-
  The reference's two layers are the kernel's whole-array stage over the same neighbours' mean.

  Both programs take the neighbours' mean by the same host operations, printed once per program: as functions of the
  feature array and the edge array the two printed chains are one function (`agg1` for the first layer, whose feature
  array is an argument; `agg2` for the second, whose feature array is the first layer's result and stays a variable
  here). With that, the reference's first layer read at a row and a column is the specification's row of the same two
  rows as the kernel's stage (`hidden_ref`), and so is its second layer over the first (`output_ref`). The row
  parameters reach the kernel as 1 x 128 arrays and the reference as 128-vectors: the cast reads the same entry.
-/
import proofs.«143549_j6743098655467_1_alg».proof.Proof.Gen.ReferenceIdeal.Read
import proofs.«143549_j6743098655467_1_alg».proof.Proof.KerHost
import proofs.«143549_j6743098655467_1_alg».proof.Proof.KerRegion
import proofs.«143549_j6743098655467_1_alg».proof.Proof.RefLayer
import Idealize.ShloMosaic.Lib.ValueIdx
import Idealize.ShloMosaic.Lib.ValueLayout

set_option maxRecDepth 16384

noncomputable section

namespace Cert.Bridge

open Idealize.ShloMosaic Idealize.ShloMosaic.ValueIdx
open Cert.KernelIdeal.HostValue Cert.KernelIdeal.RegionValue
open Cert.ReferenceIdeal.Read Cert.ReferenceIdeal.RefValue

/-- A 128-vector viewed as a 1 x 128 array reads, in its one row, the vector's entry. -/
theorem asRow_apply (v : (⟨Cert.KernelIdeal.S128, .f32⟩ : BufTy).Contents (Elt Ideal)) (j : Fin 128) :
    asRow v (ix2 (0 : Fin 1) j) = v (ix1 j) :=
  shapeCast_a_1a_apply v _ (0 : Fin 1) j

/-- The reference's chain for the first layer's mean is the kernel's. -/
theorem agg1 (h : (⟨Cert.ReferenceIdeal.S50000x128, .f32⟩ : BufTy).Contents (Elt Ideal))
    (x1 : (⟨Cert.ReferenceIdeal.S2x800000, .i32⟩ : BufTy).Contents (Elt Ideal)) :
    val_main_v21 (F := Ideal) h x1 = aggMean h (srcIds x1) (dstIds x1) := rfl

/-- The reference's second chain with its feature array a variable: the gather along the sources, the sum into the
    destinations and the division by the in-degree, as the reference prints them for its second layer. -/
def mean2Of (h : FVec Ideal Cert.ReferenceIdeal.S50000x128 .f32)
    (x1 : (⟨Cert.ReferenceIdeal.S2x800000, .i32⟩ : BufTy).Contents (Elt Ideal)) :
    FVec Ideal Cert.ReferenceIdeal.S50000x128 .f32 :=
  Host.divf (F := Ideal) (φ := .f32)
    (Host.scatterAdd (F := Ideal) (φ := .f32) Cert.ReferenceIdeal.scatter_S50000x128_S800000x1_S800000x128_1_0_0_1 (val_main_v60 (F := Ideal))
      (val_main_v61 (F := Ideal) x1)
      (Host.gather (α := Ideal .f32) Cert.ReferenceIdeal.gather_S50000x128_S800000x1_S800000x128_1_0_n_n_0_1_1128 h (val_main_v58 (F := Ideal) x1)))
    (val_main_v69 (F := Ideal) x1)

/-- Over any feature array it is the kernel's chain. -/
theorem agg2 (h : FVec Ideal Cert.ReferenceIdeal.S50000x128 .f32)
    (x1 : (⟨Cert.ReferenceIdeal.S2x800000, .i32⟩ : BufTy).Contents (Elt Ideal)) :
    mean2Of h x1 = aggMean h (srcIds x1) (dstIds x1) := rfl

section
variable (x0 : (⟨Cert.ReferenceIdeal.S50000x128, .f32⟩ : BufTy).Contents (Elt Ideal))
  (x1 : (⟨Cert.ReferenceIdeal.S2x800000, .i32⟩ : BufTy).Contents (Elt Ideal))
  (x2 x3 : (⟨Cert.ReferenceIdeal.S128x128, .f32⟩ : BufTy).Contents (Elt Ideal))
  (x4 x5 x6 : (⟨Cert.ReferenceIdeal.S128, .f32⟩ : BufTy).Contents (Elt Ideal))
  (x7 x8 : (⟨Cert.ReferenceIdeal.S128x128, .f32⟩ : BufTy).Contents (Elt Ideal))
  (x9 x10 x11 : (⟨Cert.ReferenceIdeal.S128, .f32⟩ : BufTy).Contents (Elt Ideal))

/-- The second layer's mean in the reference is the kernel's chain over the first layer's result. -/
theorem mean2_ref :
    val_main_v70 (F := Ideal) x0 x1 x2 x3 x4 x5 x6
      = aggMean (val_main_v52 (F := Ideal) x0 x1 x2 x3 x4 x5 x6) (srcIds x1) (dstIds x1) :=
  (show val_main_v70 (F := Ideal) x0 x1 x2 x3 x4 x5 x6 = mean2Of (val_main_v52 (F := Ideal) x0 x1 x2 x3 x4 x5 x6) x1 from rfl).trans
    (agg2 (val_main_v52 (F := Ideal) x0 x1 x2 x3 x4 x5 x6) x1)

/-- The reference's first layer is the whole-array stage of the features and their neighbours' mean. -/
theorem hidden_ref :
    val_main_v52 (F := Ideal) x0 x1 x2 x3 x4 x5 x6
      = layerK x0 (aggMean x0 (srcIds x1) (dstIds x1)) x2 x3 (asRow x4) (asRow x5) (asRow x6) := by
  funext i
  obtain ⟨p, q, rfl⟩ : ∃ (p : Fin 50000) (q : Fin 128), i = ix2 p q := ⟨i 0, i 1, eq_ix2 i⟩
  rw [layer1_apply, layerK_apply, agg1]
  simp only [asRow_apply]

/-- The reference's result is the whole-array stage of the first layer's result and its neighbours' mean. -/
theorem output_ref :
    val_main_v101 (F := Ideal) x0 x1 x2 x3 x4 x5 x6 x7 x8 x9 x10 x11
      = layerK (layerK x0 (aggMean x0 (srcIds x1) (dstIds x1)) x2 x3 (asRow x4) (asRow x5) (asRow x6))
          (aggMean (layerK x0 (aggMean x0 (srcIds x1) (dstIds x1)) x2 x3 (asRow x4) (asRow x5) (asRow x6)) (srcIds x1) (dstIds x1))
          x7 x8 (asRow x9) (asRow x10) (asRow x11) := by
  funext i
  obtain ⟨p, q, rfl⟩ : ∃ (p : Fin 50000) (q : Fin 128), i = ix2 p q := ⟨i 0, i 1, eq_ix2 i⟩
  rw [layer2_apply, layerK_apply, mean2_ref, hidden_ref]
  simp only [asRow_apply]

end

end Cert.Bridge

end
-- ==== Proof.lean ====
/-
  A two-layer GraphSAGE encoder as a Pallas program against its jnp reference, over the extended reals.

  Each layer takes, for every node, the mean of its in-neighbours' feature rows (a gather along the edges' sources, a
  sum into the edges' destinations, a division by the in-degree or by one), and then a dense stage row by row: the mean
  row through one weight matrix plus the node's own row through another plus a bias; that row normalised by its mean
  and by the reciprocal square root of its variance plus an epsilon; scaled, shifted, clipped below at zero. The kernel
  program leaves the neighbours' mean to the same host operations as the reference and runs the dense stage as a
  pipelined region over 25 blocks of 2000 rows; the reference runs it as host operations on the whole arrays.

  The two agree because the dense stage is row-wise: what a grid point stores is, row by row, the specification's
  `Cert.Sage.row` of the same rows of its two row-blocked operands (matrix products into zero and lane sums are plain
  sums, the narrowing casts are the identity, and both sides divide by the same literal 128 and add the same literal
  epsilon), the 25 blocks tile the rows, and the reference's host operations read at a row and a column are the same
  `Cert.Sage.row`. The neighbours' mean is one function of the feature array and the edge array in both programs and is
  never opened. No law that needs finiteness is used: the precondition is not opened.

  The frames of the two kernel programs are the generated ones; the reference's is its generated run with the result
  dropped. The ideal pass rewrote nothing, so `preserves` is `True`.
-/
import proofs.«143549_j6743098655467_1_alg».proof.Defs
import proofs.«143549_j6743098655467_1_alg».proof.Proof.Gen.Kernel
import proofs.«143549_j6743098655467_1_alg».proof.Proof.Gen.Kernel.Skeleton
import proofs.«143549_j6743098655467_1_alg».proof.Proof.Gen.Kernel.Launch
import proofs.«143549_j6743098655467_1_alg».proof.Proof.Gen.Kernel.Points
import proofs.«143549_j6743098655467_1_alg».proof.Proof.Gen.Kernel.Frame
import proofs.«143549_j6743098655467_1_alg».proof.Proof.Gen.KernelIdeal
import proofs.«143549_j6743098655467_1_alg».proof.Proof.Gen.KernelIdeal.Skeleton
import proofs.«143549_j6743098655467_1_alg».proof.Proof.Gen.KernelIdeal.Launch
import proofs.«143549_j6743098655467_1_alg».proof.Proof.Gen.KernelIdeal.Points
import proofs.«143549_j6743098655467_1_alg».proof.Proof.Gen.KernelIdeal.Frame
import proofs.«143549_j6743098655467_1_alg».proof.Proof.Gen.ReferenceIdeal
import proofs.«143549_j6743098655467_1_alg».proof.Proof.Gen.Pre_finite_inputs
import proofs.«143549_j6743098655467_1_alg».proof.Proof.Gen.ReferenceIdeal.Run
import proofs.«143549_j6743098655467_1_alg».proof.Proof.Gen.ReferenceIdeal.Read
import proofs.«143549_j6743098655467_1_alg».proof.Proof.KerRun
import proofs.«143549_j6743098655467_1_alg».proof.Proof.KerValue
import proofs.«143549_j6743098655467_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the second layer's output of the launch arrays: the kernel's by the run read boundary by
    boundary, the reference's by its run read stage by stage, from arguments that agree. -/
theorem algebraic : Cert.algebraic_KernelIdeal_ReferenceIdeal := by
  intro m ρ m' ρ' _ hagree
  refine ⟨fun c => Cert.KernelIdeal.NetValue.output m c, ?_, ?_⟩
  · exact (θ_run Cert.KernelIdeal.defs _ _).mono
      (fun r h c => ⟨(h c).1.trans (Cert.KernelIdeal.NetValue.result_eq m ρ c), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v101_eq, a0, a1, a2, a3, a4, a5, a6, a7, a8, a9, a10, a11]
    exact Cert.Bridge.output_ref _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
